-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S8388608 : Shape := ⟨1, ![8388608]⟩
abbrev S1048576 : Shape := ⟨1, ![1048576]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1048576 : S_.BroadcastsInDim S1048576 (![] : Fin 0 → Fin S1048576.rank)
  reducesTo_S1048576_S_d0 : S1048576.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S8388608 32) (main_arg2 : FVec F S1048576 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1048576 .f32 := Host.absf main_arg2
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S8388608 : Shape := ⟨1, ![8388608]⟩
abbrev S1048576 : Shape := ⟨1, ![1048576]⟩
abbrev S4096 : Shape := ⟨1, ![4096]⟩
abbrev S4096x2048 : Shape := ⟨2, ![4096, 2048]⟩
abbrev S4096x256 : Shape := ⟨2, ![4096, 256]⟩
abbrev S4096x4096 : Shape := ⟨2, ![4096, 4096]⟩
abbrev S128x2048 : Shape := ⟨2, ![128, 2048]⟩
abbrev S128x256 : Shape := ⟨2, ![128, 256]⟩
abbrev S128x4096 : Shape := ⟨2, ![128, 4096]⟩
abbrev S128x256x1 : Shape := ⟨3, ![128, 256, 1]⟩
abbrev S128x256x8 : Shape := ⟨3, ![128, 256, 8]⟩
abbrev S128x2048x1 : Shape := ⟨3, ![128, 2048, 1]⟩
abbrev S128x2048x2 : Shape := ⟨3, ![128, 2048, 2]⟩
abbrev S8192x4096 : Shape := ⟨2, ![8192, 4096]⟩
abbrev S1x4096 : Shape := ⟨2, ![1, 4096]⟩
abbrev S1024x512 : Shape := ⟨2, ![1024, 512]⟩
abbrev S2048x512 : Shape := ⟨2, ![2048, 512]⟩
abbrev S1x2048 : Shape := ⟨2, ![1, 2048]⟩
abbrev S1024x2048 : Shape := ⟨2, ![1024, 2048]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S1048576, .f32⟩
  | .hbm, ⟨3, _⟩ => ⟨S4096, .f32⟩
  | .hbm, ⟨4, _⟩ => ⟨S4096x2048, .i32⟩
  | .hbm, ⟨5, _⟩ => ⟨S4096x256, .f32⟩
  | .hbm, ⟨6, _⟩ => ⟨S4096x4096, .bf16⟩
  | .hbm, ⟨7, _⟩ => ⟨S8192x4096, .f32⟩
  | .hbm, ⟨8, _⟩ => ⟨S1x4096, .f32⟩
  | .hbm, ⟨9, _⟩ => ⟨S8192x4096, .f32⟩
  | .hbm, ⟨10, _⟩ => ⟨S4x2048x4096, .f32⟩
  | .local _ .vmem, ⟨0, _⟩ => ⟨S128x2048, .i32⟩
  | .local _ .vmem, ⟨1, _⟩ => ⟨S128x2048, .i32⟩
  | .local _ .vmem, ⟨2, _⟩ => ⟨S128x256, .f32⟩
  | .local _ .vmem, ⟨3, _⟩ => ⟨S128x256, .f32⟩
  | .local _ .vmem, ⟨4, _⟩ => ⟨S128x4096, .bf16⟩
  | .local _ .vmem, ⟨5, _⟩ => ⟨S128x4096, .bf16⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S8388608_S4096x2048 : S8388608.ShapeCasts S4096x2048
  shapeCasts_S1048576_S4096x256 : S1048576.ShapeCasts S4096x256
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S128x256x1 : S128x256.ShapeCasts S128x256x1
  shapeCasts_S128x256x1_S128x256x1 : S128x256x1.ShapeCasts S128x256x1
  broadcasts_S128x256x1_S128x256x8 : S128x256x1.Broadcasts S128x256x8
  shapeCasts_S128x256x8_S128x2048 : S128x256x8.ShapeCasts S128x2048
  bitsLt_bf16_f32 : FTy.bits .bf16 < FTy.bits .f32
  shapeCasts_S128x2048_S128x2048x1 : S128x2048.ShapeCasts S128x2048x1
  concatenates_S128x2048x1_S128x2048x1_S128x2048x2_d2 : Shape.Concatenates [S128x2048x1, S128x2048x1] S128x2048x2 2
  shapeCasts_S128x2048x2_S128x4096 : S128x2048x2.ShapeCasts S128x4096
  inb_S128x4096_S128x4096_0_0 : ∀ a, (![0, 0] : Fin 2 → Nat) a + S128x4096.size a ≤ S128x4096.size a
  h_S128x4096 : 0 < S128x4096.numel
  packedbf16_S128x4096_S128x4096_0_0 : (Rect.unit (s := S128x4096) ![0, 0] S128x4096.size inb_S128x4096_S128x4096_0_0).PackedRows (EltTy.packing .bf16)
  shapeCasts_S4x2048x4096_S8192x4096 : S4x2048x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .i32 = 32 ∨ (Rect.block (s := S4096x2048) S128x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S4096x256.size a
  hwx0_1 : ∀ i : grid0.Coords, EltTy.bits .f32 = 32 ∨ (Rect.block (s := S4096x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S4096x4096.size a
  hwx0_2 : ∀ i : grid0.Coords, EltTy.bits .bf16 = 32 ∨ (Rect.block (s := S4096x4096) S128x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S8388608 : Shape := ⟨1, ![8388608]⟩
abbrev S1048576 : Shape := ⟨1, ![1048576]⟩
abbrev S4096 : Shape := ⟨1, ![4096]⟩
abbrev S8 : Shape := ⟨1, ![8]⟩
abbrev S_ : Shape := ⟨0, ![]⟩
abbrev S8388608x1 : Shape := ⟨2, ![8388608, 1]⟩
abbrev S8388608x2 : Shape := ⟨2, ![8388608, 2]⟩
abbrev S16777216 : Shape := ⟨1, ![16777216]⟩
abbrev S16777216x1 : Shape := ⟨2, ![16777216, 1]⟩
abbrev S1048576x16 : Shape := ⟨2, ![1048576, 16]⟩
abbrev S4096x4096 : Shape := ⟨2, ![4096, 4096]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8388608, .i32⟩
  | .hbm, ⟨2, _⟩ => ⟨S1048576, .f32⟩
  | .hbm, ⟨3, _⟩ => ⟨S4096, .f32⟩
  | .hbm, ⟨4, _⟩ => ⟨S8, .f32⟩
  | .hbm, ⟨5, _⟩ => ⟨S_, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S8388608, .i32⟩
  | .hbm, ⟨10, _⟩ => ⟨S8388608, .i32⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x1, .i32⟩
  | .hbm, ⟨16, _⟩ => ⟨S8388608x2, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i32⟩
  | .hbm, ⟨21, _⟩ => ⟨S_, .i32⟩
  | .hbm, ⟨22, _⟩ => ⟨S16777216, .i32⟩
  | .hbm, ⟨23, _⟩ => ⟨S16777216, .i32⟩
  | .hbm, ⟨24, _⟩ => ⟨S16777216, .f32⟩
  | .hbm, ⟨25, _⟩ => ⟨S_, .i32⟩
  | .hbm, ⟨26, _⟩ => ⟨S16777216, .i32⟩
  | .hbm, ⟨27, _⟩ => ⟨S16777216, .i32⟩
  | .hbm, ⟨28, _⟩ => ⟨S_, .i32⟩
  | .hbm, ⟨29, _⟩ => ⟨S16777216, .i32⟩
  | .hbm, ⟨30, _⟩ => ⟨S16777216, .i1⟩
  | .hbm, ⟨31, _⟩ => ⟨S_, .i32⟩
  | .hbm, ⟨32, _⟩ => ⟨S16777216, .i32⟩
  | .hbm, ⟨33, _⟩ => ⟨S16777216, .i32⟩
  | .hbm, ⟨34, _⟩ => ⟨S16777216, .i32⟩
  | .hbm, ⟨35, _⟩ => ⟨S16777216x1, .i32⟩
  | .hbm, ⟨36, _⟩ => ⟨S16777216, .f32⟩
  | .hbm, ⟨37, _⟩ => ⟨S_, .f32⟩
  | .hbm, ⟨38, _⟩ => ⟨S16777216, .f32⟩
  | .hbm, ⟨39, _⟩ => ⟨S16777216, .i1⟩
  | .hbm, ⟨40, _⟩ => ⟨S16777216, .f32⟩
  | .hbm, ⟨41, _⟩ => ⟨S16777216, .f32⟩
  | .hbm, ⟨42, _⟩ => ⟨S1048576x16, .f32⟩
  | .hbm, ⟨43, _⟩ => ⟨S16777216, .f32⟩
  | .hbm, ⟨44, _⟩ => ⟨S16777216, .f32⟩
  | .hbm, ⟨45, _⟩ => ⟨S4096x4096, .f32⟩
  | .hbm, ⟨46, _⟩ => ⟨S4x2048x4096, .f32⟩
  | .hbm, ⟨47, _⟩ => ⟨S1x1x4096, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  shapeCasts_S8388608x2_S16777216 : S8388608x2.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S1048576_S1048576x16_0 : S1048576.BroadcastsInDim S1048576x16 (![0] : Fin 1 → Fin S1048576x16.rank)
  shapeCasts_S1048576x16_S16777216 : S1048576x16.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S8_S16777216x1_S16777216_n_0_n_n_0_1_1_wf : GatherDims.WF S8 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S8_S16777216x1_S16777216_n_0_n_n_0_1_1 : GatherDims S8 S16777216x1 S16777216 where
  offsetDims := []
  collapsedSliceDims := [0]
  operandBatchingDims := []
  startIndicesBatchingDims := []
  startIndexMap := [0]
  indexVectorDim := 1
  sliceSizes := ![1]
  wf := gather_S8_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KB.Region0.lean ====
/- Region 0 (the dequantisation kernel) at the contents V it is entered from: what each grid point leaves in the
   output window's buffer, the body's triple, the pipeline's proof data and the body obligation. Generic in the float instance. -/
import proofs.«417664_j21938692948405_3_alg».proof.Proof.Gen.Kernel.Launch
import proofs.«417664_j21938692948405_3_alg».proof.Proof.Gen.Kernel.Skeleton
import proofs.«417664_j21938692948405_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one stored value as a function of its two loads: the payloads composed in program order. -/
def deq0 (v0 : Vec F S128x2048 .i32) (v98 : Vec F S128x256 .f32) : FVec F S128x4096 .bf16 :=
  k0_pay1 (k0_pay9 (k0_pay5 v0) (k0_pay6 v0) (k0_pay7 v0) k0_pay8) (k0_pay10 (k0_pay4 v0)) (k0_pay11 (k0_pay4 v0))
    (k0_pay12 (k0_pay4 v0)) k0_pay13 v98

/-! ## The two input blocks as the body finds them -/

/-- The block of packed codes (window 0) sits in its current staging buffer at every point, fetched there or not, for
    any proof data whose array is the entry contents and whose body leaves the block in place: an unfetched point has
    not moved the block index, the window is never cut and never idle. -/
theorem codes_staged_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the block of per-group scales (window 1). -/
theorem scales_staged_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle at the origin of the buffer's own extents -/

/-- Both offsets of every access of the body are zero. -/
theorem origin2 : (![0, 0] : Fin 2 → Nat) = fun _ => 0 :=
  funext fun a => match a with
    | ⟨0, _⟩ => rfl
    | ⟨1, _⟩ => rfl

/-- The 128 × 2048 block of packed words. -/
abbrev codesRect : Rect S128x2048 := Rect.unit (s := S128x2048) ![0, 0] S128x2048.size inb_S128x2048_S128x2048_0_0
/-- The 128 × 256 block of scales, one per sixteen weight columns. -/
abbrev scalesRect : Rect S128x256 := Rect.unit (s := S128x256) ![0, 0] S128x256.size inb_S128x256_S128x256_0_0
/-- The 128 × 4096 block of dequantised weights. -/
abbrev weightRect : Rect S128x4096 := Rect.unit (s := S128x4096) ![0, 0] S128x4096.size inb_S128x4096_S128x4096_0_0

/-! ## What the body leaves in the weight buffer -/

/-- The weight buffer after the body, from the two input blocks: its one store, of the dequantised value of what the
    two loads read, as the contents a covering list of writes leaves (no view, no prior contents). -/
def weightLeft (x0 : Vec F S128x2048 .i32) (x1 : Vec F S128x256 .f32) : Vec F S128x4096 .bf16 :=
  View.canon [⟨weightRect, deq0 (View.ld x0 codesRect) (View.ld x1 scalesRect)⟩]

/-- The one store is of the whole buffer, so it covers it. -/
theorem weightRect_covers (p0 : Vec F S128x4096 .bf16) (y : S128x4096.Idx) :
    ∃ pc ∈ ([⟨weightRect, p0⟩] : List (View.Piece (Elt F) S128x4096 .bf16)), y ∈ pc.1.set :=
  View.cover_of_tiled [⟨weightRect, p0⟩] S128x4096.size (by rfl) y

/-- Both loads read their whole buffers and the store overwrites the whole weight buffer, so what is left is the
    dequantised value of the two blocks themselves. -/
theorem weightLeft_eq (x0 : Vec F S128x2048 .i32) (x1 : Vec F S128x256 .f32) : weightLeft x0 x1 = deq0 x0 x1 := by
  unfold weightLeft
  rw [View.canon_unit_zero origin2]
  simp only [View.ld_unit_zero (S := S128x2048) origin2, View.ld_unit_zero (S := S128x256) origin2]

/-! ## The body's triple -/

set_option maxHeartbeats 1000000 in
/-- The kernel body on whole staging memrefs, the two inputs' at read contents and the weight buffer's at anything, runs
    to the continuation holding the inputs' as they were and the weight buffer's at weightLeft of the inputs'. The body
    reads the packed words (in its first part), then the scales, then the weight buffer itself (a value nothing uses),
    and stores once. -/
theorem dequant_body_triple (c : Dev nD) (E : Set ℕ) (i : grid0.Coords)
    (arg1 : Memref sig .tc .vmem S128x2048 .i32) (harg1 : arg1.IsWhole)
    (arg2 : Memref sig .tc .vmem S128x256 .f32) (harg2 : arg2.IsWhole)
    (arg3 : Memref sig .tc .vmem S128x4096 .bf16) (harg3 : arg3.IsWhole)
    (x0 : Vec F S128x2048 .i32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (weightLeft x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (weightRect_covers _)

/-! ## The pipeline's proof data -/

/-- The proof data of pipeline 0 on core c: the arrays as the region finds them; after the body at point t each input's
    buffer at its block and the weight buffer at weightLeft of the two blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => weightLeft (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by
  dsimp only [dat0]
theorem share_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := by
  dsimp only [dat0]

/-- What the body leaves, window by window: each input block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- and the weight buffer at its one store's contents. -/
theorem after0_2_left (c : Dev nD) (t : Fin cfg0.N) : (dat0 V c).after 2 t = weightLeft (iblk0 V c 0 t) (iblk0 V c 1 t) := by dsimp only [dat0]

/-- What point t leaves in the output window's buffer: the stored value of the two input blocks. -/
theorem after0_2 (c : Dev nD) (t : Fin cfg0.N) : (dat0 V c).after 2 t = deq0 (iblk0 V c 0 t) (iblk0 V c 1 t) :=
  (after0_2_left V c t).trans (weightLeft_eq _ _)

/-- Each input's current staging buffer holds its block at every point, fetched there or not. -/
theorem before0_0 (c : Dev nD) (t : Fin cfg0.N) (d) : (dat0 V c).before 0 t d = iblk0 V c 0 t :=
  codes_staged_of V (dat0 V c) (A_eq0 V c 0) (after0_0 V c) t d
theorem before0_1 (c : Dev nD) (t : Fin cfg0.N) (d) : (dat0 V c).before 1 t d = iblk0 V c 1 t :=
  scales_staged_of V (dat0 V c) (A_eq0 V c 1) (after0_1 V c) t d

/-! ## The body obligation, at a generic point -/

/-- What the body is called with at point t: the invariant, the core's owed tallies, and each window's current staging
    buffer at what it holds there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rewrite [show (dat0 V c).Φ t.succ = (dat0 V c).Φ t.castSucc from rfl,
    show (dat0 V c).owesAt () t.succ = (dat0 V c).owesAt () t.castSucc from rfl,
    after0_0, after0_1, after0_2_left]
  iintro ⟨HΦ, Ho, ⟨%d0, H0⟩, ⟨%d1, H1⟩, ⟨%d2, H2⟩⟩
  iapply (dequant_body_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KB.Region1Runs.lean ====
/- Region 1 (the blocked matrix product): what its three whole-body runs share. The body branches twice on the
   reduction coordinate k (the grid's last axis): it resets the accumulator where k = 0 and writes the output block
   where k = 7. Here: the two conditions in closed form over the 128 grid points, where the windows are idle or
   written back, the staging memrefs at a point, and the region's invariant with the accumulator singled out. -/
import proofs.«417664_j21938692948405_3_alg».proof.Proof.Gen.Kernel.Launch
import proofs.«417664_j21938692948405_3_alg».proof.Proof.Gen.Kernel.Skeleton
import proofs.«417664_j21938692948405_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of a whole-buffer access, however spelt. -/
theorem hz2 : (![0, 0] : Fin 2 → Nat) = fun _ => 0 := funext fun a => by fin_cases a <;> rfl

/-! ## The body's two conditions -/

/-- The first conditional's condition (k = 0: reset the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): k is the fastest axis of the (8, 2, 8) grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7: add the bias row and write the output block). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the body stores nothing into the output window, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where 0 < k < 7. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the body stores the output block: the window is live. -/
theorem liveAt1_3_C : ∀ t : Fin cfg1.N, ¬cond1_0 (grid1.coords t) → cond1_1 (grid1.coords t) → cfg1.idle 3 (grid1.coords t) = false := by decide +kernel

/-! ## The staging memrefs at a point, and the accumulator -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0

/-! ## The region's invariant, the accumulator singled out -/

/-- The core's scoped buffers that region 1 neither stages through nor accumulates in (the first kernel's staging
    buffers), each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scoped rest of region 1 is those buffers and the accumulator at some contents. -/
theorem scoped1_eq (c : Dev nD) :
    (Pipeline.scopedRest (Ix := Unit) (Name := ℕ) (U := UR sig nD τ) (Lvl := ℕ) (Val := Elt F) spec1 c : sProp 𝕄)
      = iprop(others1 (F := F) c ∗ (∃ d, owns (c : Thread nD τ) scM1_0 fullShare d)) := by
  rw [scopedRest1_eq]; unfold others1; simp only [scM1_0, owns_whole]
  refine BI.Entails.antisymm (show (_ : sProp 𝕄) ⊢ _ from ?_) (show (_ : sProp 𝕄) ⊢ _ from ?_)
  · iintro ⟨H1, H2, H3, H4, H5, H6, HS⟩
    isplitl [H1 H2 H3 H4 H5 H6]
    · isplitl [H1]; · iexact H1
      isplitl [H2]; · iexact H2
      isplitl [H3]; · iexact H3
      isplitl [H4]; · iexact H4
      isplitl [H5]; · iexact H5
      iexact H6
    · iexact HS
  · iintro ⟨⟨H1, H2, H3, H4, H5, H6⟩, HS⟩
    isplitl [H1]; · iexact H1
    isplitl [H2]; · iexact H2
    isplitl [H3]; · iexact H3
    isplitl [H4]; · iexact H4
    isplitl [H5]; · iexact H5
    isplitl [H6]; · iexact H6
    iexact HS

/-- So the class's invariant is: those buffers, the accumulator at some contents, the generator register at some state. -/
theorem PhiA1_eq (c : Dev nD) :
    (Pipeline.ΦA spec1 c : sProp 𝕄)
      = iprop(iprop(others1 (F := F) c ∗ (∃ d, owns (c : Thread nD τ) scM1_0 fullShare d)) ∗ (∃ r, prngReg c r)) := by
  unfold Pipeline.ΦA; rw [scoped1_eq]

end Cert.Kernel.Hand

end
-- ==== Proof.KB.Region1RunA.lean ====
/- Region 1, the whole-body run where k = 0 (the first point of each run of eight): the accumulator is reset to
   the stored zeros and then takes the first partial product; the output window is left as found. The pieces the
   accumulator ends with are the witness the run finds; read back, they are the product block added to the zeros. -/
import proofs.«417664_j21938692948405_3_alg».proof.Proof.KB.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the three input blocks, the output's buffer at contents handed back untouched and
    the accumulator at anything, the body runs to the continuation holding the inputs' buffers and the output's as
    they were and the accumulator with its pieces written. -/
noncomputable def matmulRun_reset (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The accumulator's pieces cover it (two whole-buffer stores). -/
theorem accCover_reset (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) (y : S1024x2048.Idx) :
    ∃ pc ∈ (matmulRun_reset c i arg3 harg3 arg4 harg4 arg5 harg5 arg6 harg6 arg7 harg7 hc0 hc1 x0 x1 x2).2.1, y ∈ pc.1.set :=
  View.cover_of_tiledL (matmulRun_reset c i arg3 harg3 arg4 harg4 arg5 harg5 arg6 harg6 arg7 harg7 hc0 hc1 x0 x1 x2).2.1 S1024x2048.size (by sl_kernel_rfl) y

/-- Read back, they are the first partial product added to the stored zeros: the last store's payload, whose load of
    the accumulator reads the zeros the first store left and whose loads of the inputs read their whole buffers. -/
theorem accCanon_reset (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    View.canon (matmulRun_reset c i arg3 harg3 arg4 harg4 arg5 harg5 arg6 harg6 arg7 harg7 hc0 hc1 x0 x1 x2).2.1 = k1_pay2 x0 x1 (k1_pay1 (F := F)) := by
  unfold matmulRun_reset
  dsimp only
  sl_unfold_words
  rw [View.canon_cons_unit_zero (S := S1024x2048) hz2, View.readCov_unit_zero (S := S1024x2048) _ hz2]
  simp only [View.readAt_eq_ld, harg3.read_unread, harg4.read_unread, View.ld_unit_zero (S := S1024x512) hz2, View.ld_unit_zero (S := S2048x512) hz2]

end Cert.Kernel.Hand

end
-- ==== Proof.KB.Region1RunB.lean ====
/- Region 1, the whole-body run where 0 < k < 7: the accumulator, found at what the point before left, takes the
   next partial product; the output window is left as found. -/
import proofs.«417664_j21938692948405_3_alg».proof.Proof.KB.Region1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the three input blocks, the output's buffer at contents handed back untouched and
    the accumulator at the contents `xs0` the point before left, the body runs to the continuation holding the
    inputs' buffers and the output's as they were and the accumulator with its pieces written. -/
noncomputable def matmulRun_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The accumulator's pieces cover it (one whole-buffer store). -/
theorem accCover_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) (y : S1024x2048.Idx) :
    ∃ pc ∈ (matmulRun_mid c i arg3 harg3 arg4 harg4 arg5 harg5 arg6 harg6 arg7 harg7 hc0 hc1 x0 x1 x2 xs0).2.1, y ∈ pc.1.set :=
  View.cover_of_tiledL (matmulRun_mid c i arg3 harg3 arg4 harg4 arg5 harg5 arg6 harg6 arg7 harg7 hc0 hc1 x0 x1 x2 xs0).2.1 S1024x2048.size (by sl_kernel_rfl) y

/-- Read back, they are the partial product added to what the point before left. -/
theorem accCanon_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    View.canon (matmulRun_mid c i arg3 harg3 arg4 harg4 arg5 harg5 arg6 harg6 arg7 harg7 hc0 hc1 x0 x1 x2 xs0).2.1 = k1_pay2 x0 x1 xs0 := by
  unfold matmulRun_mid
  dsimp only
  sl_unfold_words
  rw [View.canon_unit_zero (S := S1024x2048) hz2]
  simp only [View.readAt_eq_ld, harg3.read_unread, harg4.read_unread, harg7.read_unread, View.ld_unit_zero (S := S1024x512) hz2, View.ld_unit_zero (S := S2048x512) hz2, View.ld_unit_zero (S := S1024x2048) hz2]

end Cert.Kernel.Hand

end
-- ==== Proof.KB.Region1RunC.lean ====
/- Region 1, the whole-body run where k = 7 (the last point of each run of eight): the accumulator takes the last
   partial product, and the output window's buffer is stored the accumulator plus the bias row. -/
import proofs.«417664_j21938692948405_3_alg».proof.Proof.KB.Region1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the three input blocks, the output's buffer at anything and the accumulator at
    the contents `xs0` the point before left, the body runs to the continuation holding the inputs' buffers as they
    were and the output's buffer and the accumulator with their pieces written. -/
noncomputable def matmulRun_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The output buffer's pieces cover it (one whole-buffer store). -/
theorem outCover_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (matmulRun_last c i arg3 harg3 arg4 harg4 arg5 harg5 arg6 harg6 arg7 harg7 hc0 hc1 x0 x1 x2 xs0).1, y ∈ pc.1.set :=
  View.cover_of_tiledL (matmulRun_last c i arg3 harg3 arg4 harg4 arg5 harg5 arg6 harg6 arg7 harg7 hc0 hc1 x0 x1 x2 xs0).1 S1024x2048.size (by sl_kernel_rfl) y

/-- The accumulator's pieces cover it (one whole-buffer store). -/
theorem accCover_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (matmulRun_last c i arg3 harg3 arg4 harg4 arg5 harg5 arg6 harg6 arg7 harg7 hc0 hc1 x0 x1 x2 xs0).2.1, y ∈ pc.1.set :=
  View.cover_of_tiledL (matmulRun_last c i arg3 harg3 arg4 harg4 arg5 harg5 arg6 harg6 arg7 harg7 hc0 hc1 x0 x1 x2 xs0).2.1 S1024x2048.size (by sl_kernel_rfl) y

/-- Read back, the accumulator's pieces are the partial product added to what the point before left; -/
theorem accCanon_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    View.canon (matmulRun_last c i arg3 harg3 arg4 harg4 arg5 harg5 arg6 harg6 arg7 harg7 hc0 hc1 x0 x1 x2 xs0).2.1 = k1_pay2 x0 x1 xs0 := by
  unfold matmulRun_last
  dsimp only
  sl_unfold_words
  rw [View.canon_unit_zero (S := S1024x2048) hz2]
  simp only [View.readAt_eq_ld, harg3.read_unread, harg4.read_unread, harg7.read_unread, View.ld_unit_zero (S := S1024x512) hz2, View.ld_unit_zero (S := S2048x512) hz2, View.ld_unit_zero (S := S1024x2048) hz2]

/-- and the output buffer's are that plus the bias row: its store's payload, whose load of the accumulator reads what
    the store before left there and whose load of the bias window reads its whole buffer. -/
theorem outCanon_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    View.canon (matmulRun_last c i arg3 harg3 arg4 harg4 arg5 harg5 arg6 harg6 arg7 harg7 hc0 hc1 x0 x1 x2 xs0).1 = k1_pay3 (k1_pay2 x0 x1 xs0) x2 := by
  unfold matmulRun_last
  dsimp only
  sl_unfold_words
  rw [View.canon_unit_zero (S := S1024x2048) hz2, View.readCov_unit_zero (S := S1024x2048) _ hz2]
  simp only [View.readAt_eq_ld, harg3.read_unread, harg4.read_unread, harg5.read_unread, harg7.read_unread, View.ld_unit_zero (S := S1024x512) hz2, View.ld_unit_zero (S := S2048x512) hz2, View.ld_unit_zero (S := S1x2048) hz2, View.ld_unit_zero (S := S1024x2048) hz2]

end Cert.Kernel.Hand

end
-- ==== Proof.KB.Region1.lean ====
/- Region 1 (the blocked matrix product) at the contents V it is entered from: the accumulator the kernel carries
   between grid points, what the last point of each run of eight leaves in the output window's buffer, the pipeline's
   proof data and the body obligation. Generic in the float instance. -/
import proofs.«417664_j21938692948405_3_alg».proof.Proof.KB.Region1RunC
import proofs.«417664_j21938692948405_3_alg».proof.Proof.Gen.Kernel.Launch
import proofs.«417664_j21938692948405_3_alg».proof.Proof.Gen.Kernel.Skeleton
import proofs.«417664_j21938692948405_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at point t at their literal types. -/
abbrev xb1 (c : Dev nD) (t : Fin cfg1.N) : Vec F S1024x512 .f32 := iblk1 V c 0 t
abbrev wb1 (c : Dev nD) (t : Fin cfg1.N) : Vec F S2048x512 .bf16 := iblk1 V c 1 t
abbrev bb1 (c : Dev nD) (t : Fin cfg1.N) : Vec F S1x2048 .f32 := iblk1 V c 2 t

/-- What the accumulator holds after point n. -/
def scr1 (c : Dev nD) : (n : ℕ) → n < cfg1.N → Vec F S1024x2048 .f32
  | 0, hn => k1_pay2 (xb1 V c ⟨0, hn⟩) (wb1 V c ⟨0, hn⟩) (k1_pay1 (F := F))
  | n + 1, hn =>
    if (n + 1) % 8 = 0 then k1_pay2 (xb1 V c ⟨n + 1, hn⟩) (wb1 V c ⟨n + 1, hn⟩) (k1_pay1 (F := F))
    else k1_pay2 (xb1 V c ⟨n + 1, hn⟩) (wb1 V c ⟨n + 1, hn⟩) (scr1 c n (Nat.lt_of_succ_lt hn))

/-- At the first point of a run of eight the accumulator restarts from the stored zeros. -/
theorem scr1_first (c : Dev nD) (t : Fin cfg1.N) (h : t.val % 8 = 0) :
    scr1 V c t.val t.isLt = k1_pay2 (xb1 V c t) (wb1 V c t) (k1_pay1 (F := F)) := by
  obtain ⟨n, hn⟩ := t
  cases n with
  | zero => exact rfl
  | succ n => exact (if_pos h).trans rfl
/-- At every other point it adds to what the point before left. -/
theorem scr1_next (c : Dev nD) (t : Fin cfg1.N) (h : t.val % 8 ≠ 0) :
    scr1 V c t.val t.isLt = k1_pay2 (xb1 V c t) (wb1 V c t) (scr1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position n: before the first point the class's (every scoped buffer at anything);
    afterwards the accumulator at what the point before left in it, the other scoped buffers at anything and the
    generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare (scr1 V c n hn)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare (scr1 V c (n - 1) (by omega))) ∗ (∃ r, prngReg c r)) := by
  cases n with
  | zero => exact absurd rfl hz
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scr1 V c t.val t.isLt) (bb1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves in the inputs' buffers: their blocks. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- At the last point of a run of eight the output window's buffer gets the accumulator plus the bias row. -/
theorem after1_3 (c : Dev nD) (t : Fin cfg1.N) (h : t.val % 8 = 7) :
    (dat1 V c).after 3 t = k1_pay3 (scr1 V c t.val t.isLt) (bb1 V c t) := by dsimp only [dat1]

/-- Each input's current staging buffer holds its block at every point, fetched there or not (the bias block is
    fetched only at the first point of a run of eight: unfetched, its index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the three runs the
    point is in; the invariant hands the body the accumulator at what the point before left (at anything at the very
    first point) and takes it back at this point's contents, read off the run's pieces; the output window's buffer
    is handed back untouched where the body stores nothing into it, and at the accumulator plus the bias row where
    it does; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t hc0 hc1) (noFlush1_3_A t hc0 hc1)]
      rw [scr1_first V c t h0]
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩⟩
        iapply ((matmulRun_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro
            exact (View.read_writes_eq_canon _ _ _ (accCover_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))).trans
              (accCanon_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((matmulRun_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro
            exact (View.read_writes_eq_canon _ _ _ (accCover_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))).trans
              (accCanon_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t hc0 hc1], after1_3 V c t h1]
      rw [scr1_next V c t h0]
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩⟩
      iapply ((matmulRun_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro
          exact (View.read_writes_eq_canon _ _ _ (accCover_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)).trans
            (accCanon_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (outCover_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)).trans
        (outCanon_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t hc0 hc1) (noFlush1_3_B t hc0 hc1)]
      rw [scr1_next V c t h0]
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩⟩
      iapply ((matmulRun_mid c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro
          exact (View.read_writes_eq_canon _ _ _ (accCover_mid c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)).trans
            (accCanon_mid c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, and the invariant after the last point gives it back. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

end

end Cert.Kernel.Hand

end
-- ==== Proof.KB.Run.lean ====
/- The whole program's run: the contents of every unscoped buffer between @main's five items (two host reshapes, the
   dequantisation region, two host reshapes, the matrix-product region, one host reshape), the two regions as segments
   of the launch, and the run itself, whose final memory holds every unscoped buffer at the last of those contents.
   Generic in the float instance. -/
import proofs.«417664_j21938692948405_3_alg».proof.Proof.KB.Region0
import proofs.«417664_j21938692948405_3_alg».proof.Proof.KB.Region1
import proofs.«417664_j21938692948405_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items -/

/-- Core c's buffers at launch. -/
abbrev W0 (c : Dev nD) : Valuation τ sig (Elt F) := fun b => m (c, b)
/-- After the first two reshapes (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the next two reshapes (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the last reshape: the final contents. -/
abbrev W5 (c : Dev nD) : Valuation τ sig (Elt F) := StableHlo.after hostOps2 (W4 m c)

/-! ### A region's exit contents: its arrays at what the pipeline leaves, the rest as entered -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem arrAt_exit0 (c : Dev nD) (w : Fin cfg0.W) : (dat0 (V1 m) c).arrAt w cfg0.N = V2 m c (Pipeline.arrRef spec0 w) :=
  (W2_arr m c w).symm
theorem rest_exit0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem arrAt_exit1 (c : Dev nD) (w : Fin cfg1.W) : (dat1 (V3 m) c).arrAt w cfg1.N = V4 m c (Pipeline.arrRef spec1 w) :=
  (W4_arr m c w).symm
theorem rest_exit1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### A buffer no item writes holds its launch contents throughout -/

theorem W1_kept (c : Dev nD) (r : Ref sig .tc) (h0 : r ∉ hostOps0_W) :
    W1 m c (Proc.devRef .tc r) = m ((c : Thread nD τ).loc r) :=
  StableHlo.after_of_writes_sub hostOps0 _ hostOps0_writes h0
theorem W2_kept (c : Dev nD) (r : Ref sig .tc) (h0 : r ∉ hostOps0_W) (h1 : ∀ w, Pipeline.arrRef spec0 w ≠ r) :
    W2 m c (Proc.devRef .tc r) = m ((c : Thread nD τ).loc r) :=
  (W2_of_ne m c r h1).trans (W1_kept m c r h0)
theorem W3_kept (c : Dev nD) (r : Ref sig .tc) (h0 : r ∉ hostOps0_W) (h1 : ∀ w, Pipeline.arrRef spec0 w ≠ r) (h2 : r ∉ hostOps1_W) :
    W3 m c (Proc.devRef .tc r) = m ((c : Thread nD τ).loc r) :=
  (StableHlo.after_of_writes_sub hostOps1 _ hostOps1_writes h2).trans (W2_kept m c r h0 h1)
theorem W4_kept (c : Dev nD) (r : Ref sig .tc) (h0 : r ∉ hostOps0_W) (h1 : ∀ w, Pipeline.arrRef spec0 w ≠ r) (h2 : r ∉ hostOps1_W)
    (h3 : ∀ w, Pipeline.arrRef spec1 w ≠ r) : W4 m c (Proc.devRef .tc r) = m ((c : Thread nD τ).loc r) :=
  (W4_of_ne m c r h3).trans (W3_kept m c r h0 h1 h2)
theorem W5_kept (c : Dev nD) (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) : W5 m c (Proc.devRef .tc r) = m ((c : Thread nD τ).loc r) :=
  (StableHlo.after_of_writes_sub hostOps2 _ hostOps2_writes h4).trans (W4_kept m c r h0 h1 h2 h3)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at some state. -/
abbrev Tₙ (c : Dev nD) : sProp 𝕄 := iprop(StableHlo.held (c : Thread nD τ) (Pipeline.ucRefs τ sig) (W5 m c) ∗ ∃ r, prngReg c r)

/-- The last host stretch's exit state is the last thread state beside the core owing nothing. -/
theorem last_state (c : Dev nD) :
    (iprop(StableHlo.held (c : Thread nD τ) (Pipeline.ucRefs τ sig) (W5 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ### Dues of a body that owes nothing and records anything -/

/-- A core owing nothing, whatever it has recorded, owes what such a proof data says before point t. -/
theorem owesAt_of_nothing {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro
    intro x _
    have hx : x ∈ dat.recorded t := by rw [hr]; exact Set.mem_univ x
    exact Or.inl hx
  iexact HO

/-- and back. -/
theorem nothing_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

/-! ## The regions as segments -/

set_option backward.isDefEq.respectTransparency.types false in
/-- REGION 0 (the dequantisation) over the thread state: entered from every unscoped buffer at W1, left at W2. Its
    arrays split out of the unscoped buffers and put back at the exit contents; the generator register into the
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => share_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 0 c) 0 (owed_eq0 (V1 m) c 0) (recorded_eq0 (V1 m) c 0))
      iexact HO
    isplitl [Hp]; · iexact Hp
    iexact Hrest
  hin c := by
    rw [show (pdats m 0 c).Φ 0 = Pipeline.ΦA spec0 c from Phi_eq0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi_eq0 (V1 m) c (Fin.last _)]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => share_eq0 (V1 m) c w)
      (V1 m c) (V2 m c) ((pdats m 0 c).arrAt · cfg0.N) (arrAt_exit0 m c) (rest_exit0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 0 c) (Fin.last _) (owed_eq0 (V1 m) c (Fin.last _)))
    iexact HO

set_option backward.isDefEq.respectTransparency.types false in
/-- REGION 1 (the matrix product) over the thread state: entered from every unscoped buffer at W3, left at W4. Its
    invariant before the first point is made from the scoped rest and the generator register, and gives them back
    after the last; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => share_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 1 c) 0 (owed_eq1 (V3 m) c 0) (recorded_eq1 (V3 m) c 0))
      iexact HO
    isplitl [Hp]; · iexact Hp
    iexact Hrest
  hin c := by
    refine BI.Entails.trans ?_ (hin1 (V3 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (V3 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => share_eq1 (V3 m) c w)
      (V3 m c) (V4 m c) ((pdats m 1 c).arrAt · cfg1.N) (arrAt_exit1 m c) (rest_exit1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 1 c) (Fin.last _) (owed_eq1 (V3 m) c (Fin.last _)))
    iexact HO

/-! ## @main as segments, and the launch -/

/-- @main's five items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer of every core at the last contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! No item writes an argument. -/
theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide)

/-! What the host reshapes and the regions leave where the next item reads. -/
theorem V1_main_v0 (c : Dev nD) : V1 m c main_v0 = shapeCast S4096x2048 (m ((c : Thread nD τ).loc main_arg1)) Facts₀.shapeCasts_S8388608_S4096x2048 := by
  show StableHlo.after hostOps0 (W0 m c) (Proc.devRef .tc main_v0) = _
  after_results
  rfl
theorem V1_main_v1 (c : Dev nD) : V1 m c main_v1 = shapeCast S4096x256 (m ((c : Thread nD τ).loc main_arg2)) Facts₀.shapeCasts_S1048576_S4096x256 := by
  show StableHlo.after hostOps0 (W0 m c) (Proc.devRef .tc main_v1) = _
  after_results
  rfl
theorem V3_main_v2 (c : Dev nD) : V3 m c main_v2 = (dat0 (V1 m) c).arrAt 2 cfg0.N :=
  (StableHlo.after_of_writes_sub (r := main_v2) hostOps1 (W2 m c) hostOps1_writes (by decide)).trans (W2_arr m c 2)
theorem V3_main_v3 (c : Dev nD) : V3 m c main_v3 = shapeCast S8192x4096 (m ((c : Thread nD τ).loc main_arg0)) Facts₀.shapeCasts_S4x2048x4096_S8192x4096 := by
  show StableHlo.after hostOps1 (W2 m c) (Proc.devRef .tc main_v3) = _
  after_results
  rw [W2_kept m c main_arg0 (by decide) (by decide)]
  rfl
theorem V3_main_v4 (c : Dev nD) : V3 m c main_v4 = shapeCast S1x4096 (m ((c : Thread nD τ).loc main_arg3)) Facts₀.shapeCasts_S4096_S1x4096 := by
  show StableHlo.after hostOps1 (W2 m c) (Proc.devRef .tc main_v4) = _
  after_results
  rw [W2_kept m c main_arg3 (by decide) (by decide)]
  rfl
theorem W5_main_v6 (c : Dev nD) : W5 m c (Proc.devRef .tc main_v6) = shapeCast S4x2048x4096 ((dat1 (V3 m) c).arrAt 3 cfg1.N) Facts₀.shapeCasts_S8192x4096_S4x2048x4096 := by
  show StableHlo.after hostOps2 (W4 m c) (Proc.devRef .tc main_v6) = _
  after_results
  rw [show W4 m c (Proc.devRef .tc main_v5) = (dat1 (V3 m) c).arrAt 3 cfg1.N from W4_arr m c 3]
  rfl

end Cert.Kernel.Hand

end
-- ==== Proof.KI.Region0.lean ====
/- Region 0 (the dequantisation kernel) at the contents V it is entered from: what each grid point leaves in the
   output window's buffer, the body's triple, the pipeline's proof data and the body obligation. Generic in the float instance. -/
import proofs.«417664_j21938692948405_3_alg».proof.Proof.Gen.KernelIdeal.Launch
import proofs.«417664_j21938692948405_3_alg».proof.Proof.Gen.KernelIdeal.Skeleton
import proofs.«417664_j21938692948405_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's one stored value as a function of its two loads: the payloads composed in program order. -/
def deq0 (v0 : Vec F S128x2048 .i32) (v98 : Vec F S128x256 .f32) : FVec F S128x4096 .bf16 :=
  k0_pay1 (k0_pay9 (k0_pay5 v0) (k0_pay6 v0) (k0_pay7 v0) k0_pay8) (k0_pay10 (k0_pay4 v0)) (k0_pay11 (k0_pay4 v0))
    (k0_pay12 (k0_pay4 v0)) k0_pay13 v98

/-! ## The two input blocks as the body finds them -/

/-- The block of packed codes (window 0) sits in its current staging buffer at every point, fetched there or not, for
    any proof data whose array is the entry contents and whose body leaves the block in place: an unfetched point has
    not moved the block index, the window is never cut and never idle. -/
theorem codes_staged_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the block of per-group scales (window 1). -/
theorem scales_staged_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle at the origin of the buffer's own extents -/

/-- Both offsets of every access of the body are zero. -/
theorem origin2 : (![0, 0] : Fin 2 → Nat) = fun _ => 0 :=
  funext fun a => match a with
    | ⟨0, _⟩ => rfl
    | ⟨1, _⟩ => rfl

/-- The 128 × 2048 block of packed words. -/
abbrev codesRect : Rect S128x2048 := Rect.unit (s := S128x2048) ![0, 0] S128x2048.size inb_S128x2048_S128x2048_0_0
/-- The 128 × 256 block of scales, one per sixteen weight columns. -/
abbrev scalesRect : Rect S128x256 := Rect.unit (s := S128x256) ![0, 0] S128x256.size inb_S128x256_S128x256_0_0
/-- The 128 × 4096 block of dequantised weights. -/
abbrev weightRect : Rect S128x4096 := Rect.unit (s := S128x4096) ![0, 0] S128x4096.size inb_S128x4096_S128x4096_0_0

/-! ## What the body leaves in the weight buffer -/

/-- The weight buffer after the body, from the two input blocks: its one store, of the dequantised value of what the
    two loads read, as the contents a covering list of writes leaves (no view, no prior contents). -/
def weightLeft (x0 : Vec F S128x2048 .i32) (x1 : Vec F S128x256 .f32) : Vec F S128x4096 .bf16 :=
  View.canon [⟨weightRect, deq0 (View.ld x0 codesRect) (View.ld x1 scalesRect)⟩]

/-- The one store is of the whole buffer, so it covers it. -/
theorem weightRect_covers (p0 : Vec F S128x4096 .bf16) (y : S128x4096.Idx) :
    ∃ pc ∈ ([⟨weightRect, p0⟩] : List (View.Piece (Elt F) S128x4096 .bf16)), y ∈ pc.1.set :=
  View.cover_of_tiled [⟨weightRect, p0⟩] S128x4096.size (by rfl) y

/-- Both loads read their whole buffers and the store overwrites the whole weight buffer, so what is left is the
    dequantised value of the two blocks themselves. -/
theorem weightLeft_eq (x0 : Vec F S128x2048 .i32) (x1 : Vec F S128x256 .f32) : weightLeft x0 x1 = deq0 x0 x1 := by
  unfold weightLeft
  rw [View.canon_unit_zero origin2]
  simp only [View.ld_unit_zero (S := S128x2048) origin2, View.ld_unit_zero (S := S128x256) origin2]

/-! ## The body's triple -/

set_option maxHeartbeats 1000000 in
/-- The kernel body on whole staging memrefs, the two inputs' at read contents and the weight buffer's at anything, runs
    to the continuation holding the inputs' as they were and the weight buffer's at weightLeft of the inputs'. The body
    reads the packed words (in its first part), then the scales, then the weight buffer itself (a value nothing uses),
    and stores once. -/
theorem dequant_body_triple (c : Dev nD) (E : Set ℕ) (i : grid0.Coords)
    (arg1 : Memref sig .tc .vmem S128x2048 .i32) (harg1 : arg1.IsWhole)
    (arg2 : Memref sig .tc .vmem S128x256 .f32) (harg2 : arg2.IsWhole)
    (arg3 : Memref sig .tc .vmem S128x4096 .bf16) (harg3 : arg3.IsWhole)
    (x0 : Vec F S128x2048 .i32) (x1 : Vec F S128x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (weightLeft x0 x1)) -∗ K ⟨⟩))
      ⊢ wp frame (wpE (defs₀ (F := F)) Variants.none c none) E (cc0__dequant_kernel i arg1 harg1 arg2 harg2 arg3 harg3) K := by
  simp only [cc0__dequant_kernel_eq_skeleton]; unfold cc0__dequant_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (weightRect_covers _)

/-! ## The pipeline's proof data -/

/-- The proof data of pipeline 0 on core c: the arrays as the region finds them; after the body at point t each input's
    buffer at its block and the weight buffer at weightLeft of the two blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => weightLeft (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem Phi_eq0 (c : Dev nD) (t : Fin (cfg0.N + 1)) : (dat0 V c).Φ t = Pipeline.ΦA spec0 c := by
  dsimp only [dat0]
theorem share_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := by
  dsimp only [dat0]

/-- What the body leaves, window by window: each input block in place, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
/-- and the weight buffer at its one store's contents. -/
theorem after0_2_left (c : Dev nD) (t : Fin cfg0.N) : (dat0 V c).after 2 t = weightLeft (iblk0 V c 0 t) (iblk0 V c 1 t) := by dsimp only [dat0]

/-- What point t leaves in the output window's buffer: the stored value of the two input blocks. -/
theorem after0_2 (c : Dev nD) (t : Fin cfg0.N) : (dat0 V c).after 2 t = deq0 (iblk0 V c 0 t) (iblk0 V c 1 t) :=
  (after0_2_left V c t).trans (weightLeft_eq _ _)

/-- Each input's current staging buffer holds its block at every point, fetched there or not. -/
theorem before0_0 (c : Dev nD) (t : Fin cfg0.N) (d) : (dat0 V c).before 0 t d = iblk0 V c 0 t :=
  codes_staged_of V (dat0 V c) (A_eq0 V c 0) (after0_0 V c) t d
theorem before0_1 (c : Dev nD) (t : Fin cfg0.N) (d) : (dat0 V c).before 1 t d = iblk0 V c 1 t :=
  scales_staged_of V (dat0 V c) (A_eq0 V c 1) (after0_1 V c) t d

/-! ## The body obligation, at a generic point -/

/-- What the body is called with at point t: the invariant, the core's owed tallies, and each window's current staging
    buffer at what it holds there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rewrite [show (dat0 V c).Φ t.succ = (dat0 V c).Φ t.castSucc from rfl,
    show (dat0 V c).owesAt () t.succ = (dat0 V c).owesAt () t.castSucc from rfl,
    after0_0, after0_1, after0_2_left]
  iintro ⟨HΦ, Ho, ⟨%d0, H0⟩, ⟨%d1, H1⟩, ⟨%d2, H2⟩⟩
  iapply (dequant_body_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Region1Runs.lean ====
/- Region 1 (the blocked matrix product): what its three whole-body runs share. The body branches twice on the
   reduction coordinate k (the grid's last axis): it resets the accumulator where k = 0 and writes the output block
   where k = 7. Here: the two conditions in closed form over the 128 grid points, where the windows are idle or
   written back, the staging memrefs at a point, and the region's invariant with the accumulator singled out. -/
import proofs.«417664_j21938692948405_3_alg».proof.Proof.Gen.KernelIdeal.Launch
import proofs.«417664_j21938692948405_3_alg».proof.Proof.Gen.KernelIdeal.Skeleton
import proofs.«417664_j21938692948405_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a whole-buffer access, however spelt. -/
theorem hz2 : (![0, 0] : Fin 2 → Nat) = fun _ => 0 := funext fun a => by fin_cases a <;> rfl

/-! ## The body's two conditions -/

/-- The first conditional's condition (k = 0: reset the accumulator), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): k is the fastest axis of the (8, 2, 8) grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition (k = 7: add the bias row and write the output block). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k = 0 the body stores nothing into the output window, and the pipeline does not write it back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same where 0 < k < 7. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Where k = 7 the body stores the output block: the window is live. -/
theorem liveAt1_3_C : ∀ t : Fin cfg1.N, ¬cond1_0 (grid1.coords t) → cond1_1 (grid1.coords t) → cfg1.idle 3 (grid1.coords t) = false := by decide +kernel

/-! ## The staging memrefs at a point, and the accumulator -/

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0

/-! ## The region's invariant, the accumulator singled out -/

/-- The core's scoped buffers that region 1 neither stages through nor accumulates in (the first kernel's staging
    buffers), each at some contents. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The scoped rest of region 1 is those buffers and the accumulator at some contents. -/
theorem scoped1_eq (c : Dev nD) :
    (Pipeline.scopedRest (Ix := Unit) (Name := ℕ) (U := UR sig nD τ) (Lvl := ℕ) (Val := Elt F) spec1 c : sProp 𝕄)
      = iprop(others1 (F := F) c ∗ (∃ d, owns (c : Thread nD τ) scM1_0 fullShare d)) := by
  rw [scopedRest1_eq]; unfold others1; simp only [scM1_0, owns_whole]
  refine BI.Entails.antisymm (show (_ : sProp 𝕄) ⊢ _ from ?_) (show (_ : sProp 𝕄) ⊢ _ from ?_)
  · iintro ⟨H1, H2, H3, H4, H5, H6, HS⟩
    isplitl [H1 H2 H3 H4 H5 H6]
    · isplitl [H1]; · iexact H1
      isplitl [H2]; · iexact H2
      isplitl [H3]; · iexact H3
      isplitl [H4]; · iexact H4
      isplitl [H5]; · iexact H5
      iexact H6
    · iexact HS
  · iintro ⟨⟨H1, H2, H3, H4, H5, H6⟩, HS⟩
    isplitl [H1]; · iexact H1
    isplitl [H2]; · iexact H2
    isplitl [H3]; · iexact H3
    isplitl [H4]; · iexact H4
    isplitl [H5]; · iexact H5
    isplitl [H6]; · iexact H6
    iexact HS

/-- So the class's invariant is: those buffers, the accumulator at some contents, the generator register at some state. -/
theorem PhiA1_eq (c : Dev nD) :
    (Pipeline.ΦA spec1 c : sProp 𝕄)
      = iprop(iprop(others1 (F := F) c ∗ (∃ d, owns (c : Thread nD τ) scM1_0 fullShare d)) ∗ (∃ r, prngReg c r)) := by
  unfold Pipeline.ΦA; rw [scoped1_eq]

end Cert.KernelIdeal.Hand

end
-- ==== Proof.KI.Region1RunA.lean ====
/- Region 1, the whole-body run where k = 0 (the first point of each run of eight): the accumulator is reset to
   the stored zeros and then takes the first partial product; the output window is left as found. The pieces the
   accumulator ends with are the witness the run finds; read back, they are the product block added to the zeros. -/
import proofs.«417664_j21938692948405_3_alg».proof.Proof.KI.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the three input blocks, the output's buffer at contents handed back untouched and
    the accumulator at anything, the body runs to the continuation holding the inputs' buffers and the output's as
    they were and the accumulator with its pieces written. -/
noncomputable def matmulRun_reset (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The accumulator's pieces cover it (two whole-buffer stores). -/
theorem accCover_reset (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) (y : S1024x2048.Idx) :
    ∃ pc ∈ (matmulRun_reset c i arg3 harg3 arg4 harg4 arg5 harg5 arg6 harg6 arg7 harg7 hc0 hc1 x0 x1 x2).2.1, y ∈ pc.1.set :=
  View.cover_of_tiledL (matmulRun_reset c i arg3 harg3 arg4 harg4 arg5 harg5 arg6 harg6 arg7 harg7 hc0 hc1 x0 x1 x2).2.1 S1024x2048.size (by sl_kernel_rfl) y

/-- Read back, they are the first partial product added to the stored zeros: the last store's payload, whose load of
    the accumulator reads the zeros the first store left and whose loads of the inputs read their whole buffers. -/
theorem accCanon_reset (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S2048x512 .bf16) (x2 : Vec F S1x2048 .f32) :
    View.canon (matmulRun_reset c i arg3 harg3 arg4 harg4 arg5 harg5 arg6 harg6 arg7 harg7 hc0 hc1 x0 x1 x2).2.1 = k1_pay2 x0 x1 (k1_pay1 (F := F)) := by
  unfold matmulRun_reset
  dsimp only
  sl_unfold_words
  rw [View.canon_cons_unit_zero (S := S1024x2048) hz2, View.readCov_unit_zero (S := S1024x2048) _ hz2]
  simp only [View.readAt_eq_ld, harg3.read_unread, harg4.read_unread, View.ld_unit_zero (S := S1024x512) hz2, View.ld_unit_zero (S := S2048x512) hz2]

end Cert.KernelIdeal.Hand

end
-- ==== Proof.KI.Region1RunB.lean ====
/- Region 1, the whole-body run where 0 < k < 7: the accumulator, found at what the point before left, takes the
   next partial product; the output window is left as found. -/
import proofs.«417664_j21938692948405_3_alg».proof.Proof.KI.Region1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the three input blocks, the output's buffer at contents handed back untouched and
    the accumulator at the contents `xs0` the point before left, the body runs to the continuation holding the
    inputs' buffers and the output's as they were and the accumulator with its pieces written. -/
noncomputable def matmulRun_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

/-- The accumulator's pieces cover it (one whole-buffer store). -/
theorem accCover_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) (y : S1024x2048.Idx) :
    ∃ pc ∈ (matmulRun_mid c i arg3 harg3 arg4 harg4 arg5 harg5 arg6 harg6 arg7 harg7 hc0 hc1 x0 x1 x2 xs0).2.1, y ∈ pc.1.set :=
  View.cover_of_tiledL (matmulRun_mid c i arg3 harg3 arg4 harg4 arg5 harg5 arg6 harg6 arg7 harg7 hc0 hc1 x0 x1 x2 xs0).2.1 S1024x2048.size (by sl_kernel_rfl) y

/-- Read back, they are the partial product added to what the point before left. -/
theorem accCanon_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S2048x512 .bf16) (x2 : Vec F S1x2048 .f32) (xs0 : Vec F S1024x2048 .f32) :
    View.canon (matmulRun_mid c i arg3 harg3 arg4 harg4 arg5 harg5 arg6 harg6 arg7 harg7 hc0 hc1 x0 x1 x2 xs0).2.1 = k1_pay2 x0 x1 xs0 := by
  unfold matmulRun_mid
  dsimp only
  sl_unfold_words
  rw [View.canon_unit_zero (S := S1024x2048) hz2]
  simp only [View.readAt_eq_ld, harg3.read_unread, harg4.read_unread, harg7.read_unread, View.ld_unit_zero (S := S1024x512) hz2, View.ld_unit_zero (S := S2048x512) hz2, View.ld_unit_zero (S := S1024x2048) hz2]

end Cert.KernelIdeal.Hand

end
-- ==== Proof.KI.Region1RunC.lean ====
/- Region 1, the whole-body run where k = 7 (the last point of each run of eight): the accumulator takes the last
   partial product, and the output window's buffer is stored the accumulator plus the bias row. -/
import proofs.«417664_j21938692948405_3_alg».proof.Proof.KI.Region1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the three input blocks, the output's buffer at anything and the accumulator at
    the contents `xs0` the point before left, the body runs to the continuation holding the inputs' buffers as they
    were and the output's buffer and the accumulator with their pieces written. -/
noncomputable def matmulRun_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-- The output buffer's pieces cover it (one whole-buffer store). -/
theorem outCover_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (matmulRun_last c i arg3 harg3 arg4 harg4 arg5 harg5 arg6 harg6 arg7 harg7 hc0 hc1 x0 x1 x2 xs0).1, y ∈ pc.1.set :=
  View.cover_of_tiledL (matmulRun_last c i arg3 harg3 arg4 harg4 arg5 harg5 arg6 harg6 arg7 harg7 hc0 hc1 x0 x1 x2 xs0).1 S1024x2048.size (by sl_kernel_rfl) y

/-- The accumulator's pieces cover it (one whole-buffer store). -/
theorem accCover_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) (y : S1024x2048.Idx) :
    ∃ pc ∈ (matmulRun_last c i arg3 harg3 arg4 harg4 arg5 harg5 arg6 harg6 arg7 harg7 hc0 hc1 x0 x1 x2 xs0).2.1, y ∈ pc.1.set :=
  View.cover_of_tiledL (matmulRun_last c i arg3 harg3 arg4 harg4 arg5 harg5 arg6 harg6 arg7 harg7 hc0 hc1 x0 x1 x2 xs0).2.1 S1024x2048.size (by sl_kernel_rfl) y

/-- Read back, the accumulator's pieces are the partial product added to what the point before left; -/
theorem accCanon_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    View.canon (matmulRun_last c i arg3 harg3 arg4 harg4 arg5 harg5 arg6 harg6 arg7 harg7 hc0 hc1 x0 x1 x2 xs0).2.1 = k1_pay2 x0 x1 xs0 := by
  unfold matmulRun_last
  dsimp only
  sl_unfold_words
  rw [View.canon_unit_zero (S := S1024x2048) hz2]
  simp only [View.readAt_eq_ld, harg3.read_unread, harg4.read_unread, harg7.read_unread, View.ld_unit_zero (S := S1024x512) hz2, View.ld_unit_zero (S := S2048x512) hz2, View.ld_unit_zero (S := S1024x2048) hz2]

/-- and the output buffer's are that plus the bias row: its store's payload, whose load of the accumulator reads what
    the store before left there and whose load of the bias window reads its whole buffer. -/
theorem outCanon_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S2048x512 .bf16) (x2 : Vec F S1x2048 .f32) (xs0 : Vec F S1024x2048 .f32) :
    View.canon (matmulRun_last c i arg3 harg3 arg4 harg4 arg5 harg5 arg6 harg6 arg7 harg7 hc0 hc1 x0 x1 x2 xs0).1 = k1_pay3 (k1_pay2 x0 x1 xs0) x2 := by
  unfold matmulRun_last
  dsimp only
  sl_unfold_words
  rw [View.canon_unit_zero (S := S1024x2048) hz2, View.readCov_unit_zero (S := S1024x2048) _ hz2]
  simp only [View.readAt_eq_ld, harg3.read_unread, harg4.read_unread, harg5.read_unread, harg7.read_unread, View.ld_unit_zero (S := S1024x512) hz2, View.ld_unit_zero (S := S2048x512) hz2, View.ld_unit_zero (S := S1x2048) hz2, View.ld_unit_zero (S := S1024x2048) hz2]

end Cert.KernelIdeal.Hand

end
-- ==== Proof.KI.Region1.lean ====
/- Region 1 (the blocked matrix product) at the contents V it is entered from: the accumulator the kernel carries
   between grid points, what the last point of each run of eight leaves in the output window's buffer, the pipeline's
   proof data and the body obligation. Generic in the float instance. -/
import proofs.«417664_j21938692948405_3_alg».proof.Proof.KI.Region1RunC
import proofs.«417664_j21938692948405_3_alg».proof.Proof.Gen.KernelIdeal.Launch
import proofs.«417664_j21938692948405_3_alg».proof.Proof.Gen.KernelIdeal.Skeleton
import proofs.«417664_j21938692948405_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at point t at their literal types. -/
abbrev xb1 (c : Dev nD) (t : Fin cfg1.N) : Vec F S1024x512 .f32 := iblk1 V c 0 t
abbrev wb1 (c : Dev nD) (t : Fin cfg1.N) : Vec F S2048x512 .bf16 := iblk1 V c 1 t
abbrev bb1 (c : Dev nD) (t : Fin cfg1.N) : Vec F S1x2048 .f32 := iblk1 V c 2 t

/-- What the accumulator holds after point n. -/
def scr1 (c : Dev nD) : (n : ℕ) → n < cfg1.N → Vec F S1024x2048 .f32
  | 0, hn => k1_pay2 (xb1 V c ⟨0, hn⟩) (wb1 V c ⟨0, hn⟩) (k1_pay1 (F := F))
  | n + 1, hn =>
    if (n + 1) % 8 = 0 then k1_pay2 (xb1 V c ⟨n + 1, hn⟩) (wb1 V c ⟨n + 1, hn⟩) (k1_pay1 (F := F))
    else k1_pay2 (xb1 V c ⟨n + 1, hn⟩) (wb1 V c ⟨n + 1, hn⟩) (scr1 c n (Nat.lt_of_succ_lt hn))

/-- At the first point of a run of eight the accumulator restarts from the stored zeros. -/
theorem scr1_first (c : Dev nD) (t : Fin cfg1.N) (h : t.val % 8 = 0) :
    scr1 V c t.val t.isLt = k1_pay2 (xb1 V c t) (wb1 V c t) (k1_pay1 (F := F)) := by
  obtain ⟨n, hn⟩ := t
  cases n with
  | zero => exact rfl
  | succ n => exact (if_pos h).trans rfl
/-- At every other point it adds to what the point before left. -/
theorem scr1_next (c : Dev nD) (t : Fin cfg1.N) (h : t.val % 8 ≠ 0) :
    scr1 V c t.val t.isLt = k1_pay2 (xb1 V c t) (wb1 V c t) (scr1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region's invariant before position n: before the first point the class's (every scoped buffer at anything);
    afterwards the accumulator at what the point before left in it, the other scoped buffers at anything and the
    generator register at some state. -/
def PhiS1 (c : Dev nD) : (n : ℕ) → n ≤ cfg1.N → sProp 𝕄
  | 0, _ => Pipeline.ΦA spec1 c
  | n + 1, hn => iprop(iprop(others1 (F := F) c ∗ owns (c : Thread nD τ) scM1_0 fullShare (scr1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(others1 (F := F) c ∗ owns (c : Thread nD τ) scM1_0 fullShare (scr1 V c n hn)) ∗ (∃ r, prngReg c r)) := rfl

theorem PhiS1_pos (c : Dev nD) (n : ℕ) (h : n ≤ cfg1.N) (hz : n ≠ 0) :
    PhiS1 V c n h = iprop(iprop(others1 (F := F) c ∗ owns (c : Thread nD τ) scM1_0 fullShare (scr1 V c (n - 1) (by omega))) ∗ (∃ r, prngReg c r)) := by
  cases n with
  | zero => exact absurd rfl hz
  | succ n => rfl

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scr1 V c t.val t.isLt) (bb1 V c t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves in the inputs' buffers: their blocks. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-- At the last point of a run of eight the output window's buffer gets the accumulator plus the bias row. -/
theorem after1_3 (c : Dev nD) (t : Fin cfg1.N) (h : t.val % 8 = 7) :
    (dat1 V c).after 3 t = k1_pay3 (scr1 V c t.val t.isLt) (bb1 V c t) := by dsimp only [dat1]

/-- Each input's current staging buffer holds its block at every point, fetched there or not (the bias block is
    fetched only at the first point of a run of eight: unfetched, its index has not moved). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the three runs the
    point is in; the invariant hands the body the accumulator at what the point before left (at anything at the very
    first point) and takes it back at this point's contents, read off the run's pieces; the output window's buffer
    is handed back untouched where the body stores nothing into it, and at the accumulator plus the bias row where
    it does; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t hc0 hc1) (noFlush1_3_A t hc0 hc1)]
      rw [scr1_first V c t h0]
      by_cases hz : t.val = 0
      · rw [PhiS1_castSucc V c t, PhiS1_zero V c _ _ hz, PhiA1_eq]
        iintro ⟨⟨⟨HR, HS0⟩, Hg⟩, Ho, ⟨%d0, H0⟩, ⟨%d1, H1⟩, ⟨%d2, H2⟩, ⟨%d3, H3⟩⟩
        iapply ((matmulRun_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro
            exact (View.read_writes_eq_canon _ _ _ (accCover_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))).trans
              (accCanon_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR, HS0⟩, Hg⟩, Ho, ⟨%d0, H0⟩, ⟨%d1, H1⟩, ⟨%d2, H2⟩, ⟨%d3, H3⟩⟩
        iapply ((matmulRun_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro
            exact (View.read_writes_eq_canon _ _ _ (accCover_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))).trans
              (accCanon_reset c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t))
          iexact Hg
        isplitl [Ho]; · iexact Ho
        isplitl [H0]; · iexact H0
        isplitl [H1]; · iexact H1
        isplitl [H2]; · iexact H2
        iexists _; iexact H3
  · have hc0 : ¬cond1_0 (grid1.coords t) := fun h => h0 ((hcond1_0 t).mp h)
    have hz : t.val ≠ 0 := fun e => h0 (by rw [e])
    by_cases h1 : t.val % 8 = 7
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t hc0 hc1], after1_3 V c t h1]
      rw [scr1_next V c t h0]
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩⟩
      iapply ((matmulRun_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR HS0 Hg]
      · isplitl [HR HS0]
        · isplitl [HR]; · iexact HR
          unfold owns; iexists _; isplitr
          swap; · iexact HS0
          ipureintro
          exact (View.read_writes_eq_canon _ _ _ (accCover_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)).trans
            (accCanon_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_eq_canon _ _ _ (outCover_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)).trans
        (outCanon_last c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)
    · have hc1 : ¬cond1_1 (grid1.coords t) := fun h => h1 ((hcond1_1 t).mp h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t hc0 hc1) (noFlush1_3_B t hc0 hc1)]
      rw [scr1_next V c t h0]
      rw [PhiS1_castSucc V c t, PhiS1_pos V c _ _ hz]
      iintro ⟨⟨⟨HR, HS0⟩, Hg⟩, Ho, ⟨%d0, H0⟩, ⟨%d1, H1⟩, ⟨%d2, H2⟩, ⟨%d3, H3⟩⟩
      iapply ((matmulRun_mid c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR HS0 Hg]
      · isplitl [HR HS0]
        · isplitl [HR]; · iexact HR
          unfold owns; iexists _; isplitr
          swap; · iexact HS0
          ipureintro
          exact (View.read_writes_eq_canon _ _ _ (accCover_mid c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)).trans
            (accCanon_mid c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point, and the invariant after the last point gives it back. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

end

end Cert.KernelIdeal.Hand

end
-- ==== Proof.KI.Run.lean ====
/- The whole program's run: the contents of every unscoped buffer between @main's five items (two host reshapes, the
   dequantisation region, two host reshapes, the matrix-product region, one host reshape), the two regions as segments
   of the launch, and the run itself, whose final memory holds every unscoped buffer at the last of those contents.
   Generic in the float instance. -/
import proofs.«417664_j21938692948405_3_alg».proof.Proof.KI.Region0
import proofs.«417664_j21938692948405_3_alg».proof.Proof.KI.Region1
import proofs.«417664_j21938692948405_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items -/

/-- Core c's buffers at launch. -/
abbrev W0 (c : Dev nD) : Valuation τ sig (Elt F) := fun b => m (c, b)
/-- After the first two reshapes (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the next two reshapes (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
abbrev V4 : (c : Dev nD) → (b : Ref sig .tc) → Buf (Elt F) ((c : Thread nD τ).loc b) := fun c b => W4 m c b
/-- After the last reshape: the final contents. -/
abbrev W5 (c : Dev nD) : Valuation τ sig (Elt F) := StableHlo.after hostOps2 (W4 m c)

/-! ### A region's exit contents: its arrays at what the pipeline leaves, the rest as entered -/

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem arrAt_exit0 (c : Dev nD) (w : Fin cfg0.W) : (dat0 (V1 m) c).arrAt w cfg0.N = V2 m c (Pipeline.arrRef spec0 w) :=
  (W2_arr m c w).symm
theorem rest_exit0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem arrAt_exit1 (c : Dev nD) (w : Fin cfg1.W) : (dat1 (V3 m) c).arrAt w cfg1.N = V4 m c (Pipeline.arrRef spec1 w) :=
  (W4_arr m c w).symm
theorem rest_exit1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### A buffer no item writes holds its launch contents throughout -/

theorem W1_kept (c : Dev nD) (r : Ref sig .tc) (h0 : r ∉ hostOps0_W) :
    W1 m c (Proc.devRef .tc r) = m ((c : Thread nD τ).loc r) :=
  StableHlo.after_of_writes_sub hostOps0 _ hostOps0_writes h0
theorem W2_kept (c : Dev nD) (r : Ref sig .tc) (h0 : r ∉ hostOps0_W) (h1 : ∀ w, Pipeline.arrRef spec0 w ≠ r) :
    W2 m c (Proc.devRef .tc r) = m ((c : Thread nD τ).loc r) :=
  (W2_of_ne m c r h1).trans (W1_kept m c r h0)
theorem W3_kept (c : Dev nD) (r : Ref sig .tc) (h0 : r ∉ hostOps0_W) (h1 : ∀ w, Pipeline.arrRef spec0 w ≠ r) (h2 : r ∉ hostOps1_W) :
    W3 m c (Proc.devRef .tc r) = m ((c : Thread nD τ).loc r) :=
  (StableHlo.after_of_writes_sub hostOps1 _ hostOps1_writes h2).trans (W2_kept m c r h0 h1)
theorem W4_kept (c : Dev nD) (r : Ref sig .tc) (h0 : r ∉ hostOps0_W) (h1 : ∀ w, Pipeline.arrRef spec0 w ≠ r) (h2 : r ∉ hostOps1_W)
    (h3 : ∀ w, Pipeline.arrRef spec1 w ≠ r) : W4 m c (Proc.devRef .tc r) = m ((c : Thread nD τ).loc r) :=
  (W4_of_ne m c r h3).trans (W3_kept m c r h0 h1 h2)
theorem W5_kept (c : Dev nD) (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) : W5 m c (Proc.devRef .tc r) = m ((c : Thread nD τ).loc r) :=
  (StableHlo.after_of_writes_sub hostOps2 _ hostOps2_writes h4).trans (W4_kept m c r h0 h1 h2 h3)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the final contents, the generator register at some state. -/
abbrev Tₙ (c : Dev nD) : sProp 𝕄 := iprop(StableHlo.held (c : Thread nD τ) (Pipeline.ucRefs τ sig) (W5 m c) ∗ ∃ r, prngReg c r)

/-- The last host stretch's exit state is the last thread state beside the core owing nothing. -/
theorem last_state (c : Dev nD) :
    (iprop(StableHlo.held (c : Thread nD τ) (Pipeline.ucRefs τ sig) (W5 m c) ∗ R c) : sProp 𝕄)
      ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

/-! ### Dues of a body that owes nothing and records anything -/

/-- A core owing nothing, whatever it has recorded, owes what such a proof data says before point t. -/
theorem owesAt_of_nothing {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩
  iexists W
  isplitr
  · ipureintro
    intro x _
    have hx : x ∈ dat.recorded t := by rw [hr]; exact Set.mem_univ x
    exact Or.inl hx
  iexact HO

/-- and back. -/
theorem nothing_of_owesAt {cfg : Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩
  iexists W
  iexact HO

/-! ## The regions as segments -/

set_option backward.isDefEq.respectTransparency.types false in
/-- REGION 0 (the dequantisation) over the thread state: entered from every unscoped buffer at W1, left at W2. Its
    arrays split out of the unscoped buffers and put back at the exit contents; the generator register into the
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun c t => owed_eq0 (V1 m) c t
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun w => share_eq0 (V1 m) c w) (V1 m c) fun w => A_eq0 (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 0 c) 0 (owed_eq0 (V1 m) c 0) (recorded_eq0 (V1 m) c 0))
      iexact HO
    isplitl [Hp]; · iexact Hp
    iexact Hrest
  hin c := by
    rw [show (pdats m 0 c).Φ 0 = Pipeline.ΦA spec0 c from Phi_eq0 (V1 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Phi_eq0 (V1 m) c (Fin.last _)]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun w => share_eq0 (V1 m) c w)
      (V1 m c) (V2 m c) ((pdats m 0 c).arrAt · cfg0.N) (arrAt_exit0 m c) (rest_exit0 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 0 c) (Fin.last _) (owed_eq0 (V1 m) c (Fin.last _)))
    iexact HO

set_option backward.isDefEq.respectTransparency.types false in
/-- REGION 1 (the matrix product) over the thread state: entered from every unscoped buffer at W3, left at W4. Its
    invariant before the first point is made from the scoped rest and the generator register, and gives them back
    after the last; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun c t => owed_eq1 (V3 m) c t
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun w => share_eq1 (V3 m) c w) (V3 m c) fun w => A_eq1 (V3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_nothing (pdats m 1 c) 0 (owed_eq1 (V3 m) c 0) (recorded_eq1 (V3 m) c 0))
      iexact HO
    isplitl [Hp]; · iexact Hp
    iexact Hrest
  hin c := by
    refine BI.Entails.trans ?_ (hin1 (V3 m) c)
    show (_ : sProp 𝕄) ⊢ _
    unfold Pipeline.ΦA
    iintro ⟨Hp, -, Hr⟩
    isplitl [Hr]; · iexact Hr
    iexact Hp
  hout c := by
    rw [Pipeline.ownSems0_none]
    refine BI.Entails.trans (hout1 (V3 m) c) ?_
    show (_ : sProp 𝕄) ⊢ _
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => share_eq1 (V3 m) c w)
      (V3 m c) (V4 m c) ((pdats m 1 c).arrAt · cfg1.N) (arrAt_exit1 m c) (rest_exit1 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (nothing_of_owesAt (pdats m 1 c) (Fin.last _) (owed_eq1 (V3 m) c (Fin.last _)))
    iexact HO

/-! ## @main as segments, and the launch -/

/-- @main's five items in order: a host segment per stretch from its boundary's contents, a region per kernel call. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer of every core at the last contents. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-! No item writes an argument. -/
theorem W5_main_arg0 (c : Dev nD) : W5 m c (Proc.devRef .tc main_arg0) = m ((c : Thread nD τ).loc main_arg0) :=
  W5_kept m c main_arg0 (by decide) (by decide) (by decide) (by decide) (by decide)
theorem W5_main_arg1 (c : Dev nD) : W5 m c (Proc.devRef .tc main_arg1) = m ((c : Thread nD τ).loc main_arg1) :=
  W5_kept m c main_arg1 (by decide) (by decide) (by decide) (by decide) (by decide)
theorem W5_main_arg2 (c : Dev nD) : W5 m c (Proc.devRef .tc main_arg2) = m ((c : Thread nD τ).loc main_arg2) :=
  W5_kept m c main_arg2 (by decide) (by decide) (by decide) (by decide) (by decide)
theorem W5_main_arg3 (c : Dev nD) : W5 m c (Proc.devRef .tc main_arg3) = m ((c : Thread nD τ).loc main_arg3) :=
  W5_kept m c main_arg3 (by decide) (by decide) (by decide) (by decide) (by decide)

/-! What the host reshapes and the regions leave where the next item reads. -/
theorem V1_main_v0 (c : Dev nD) : V1 m c main_v0 = shapeCast S4096x2048 (m ((c : Thread nD τ).loc main_arg1)) Facts₀.shapeCasts_S8388608_S4096x2048 := by
  show StableHlo.after hostOps0 (W0 m c) (Proc.devRef .tc main_v0) = _
  after_results
  rfl
theorem V1_main_v1 (c : Dev nD) : V1 m c main_v1 = shapeCast S4096x256 (m ((c : Thread nD τ).loc main_arg2)) Facts₀.shapeCasts_S1048576_S4096x256 := by
  show StableHlo.after hostOps0 (W0 m c) (Proc.devRef .tc main_v1) = _
  after_results
  rfl
theorem V3_main_v2 (c : Dev nD) : V3 m c main_v2 = (dat0 (V1 m) c).arrAt 2 cfg0.N :=
  (StableHlo.after_of_writes_sub (r := main_v2) hostOps1 (W2 m c) hostOps1_writes (by decide)).trans (W2_arr m c 2)
theorem V3_main_v3 (c : Dev nD) : V3 m c main_v3 = shapeCast S8192x4096 (m ((c : Thread nD τ).loc main_arg0)) Facts₀.shapeCasts_S4x2048x4096_S8192x4096 := by
  show StableHlo.after hostOps1 (W2 m c) (Proc.devRef .tc main_v3) = _
  after_results
  rw [W2_kept m c main_arg0 (by decide) (by decide)]
  rfl
theorem V3_main_v4 (c : Dev nD) : V3 m c main_v4 = shapeCast S1x4096 (m ((c : Thread nD τ).loc main_arg3)) Facts₀.shapeCasts_S4096_S1x4096 := by
  show StableHlo.after hostOps1 (W2 m c) (Proc.devRef .tc main_v4) = _
  after_results
  rw [W2_kept m c main_arg3 (by decide) (by decide)]
  rfl
theorem W5_main_v6 (c : Dev nD) : W5 m c (Proc.devRef .tc main_v6) = shapeCast S4x2048x4096 ((dat1 (V3 m) c).arrAt 3 cfg1.N) Facts₀.shapeCasts_S8192x4096_S4x2048x4096 := by
  show StableHlo.after hostOps2 (W4 m c) (Proc.devRef .tc main_v6) = _
  after_results
  rw [show W4 m c (Proc.devRef .tc main_v5) = (dat1 (V3 m) c).arrAt 3 cfg1.N from W4_arr m c 3]
  rfl

end Cert.KernelIdeal.Hand

end
-- ==== Proof.Spec.lean ====
/- The function both programs compute, written once over the four argument arrays.

   A packed word carries two 4-bit codes: bits 4–7 (the even column) and bits 0–3 (the odd column). A code's bit 3 is a
   sign, its bits 0–2 select one of eight magnitudes 0, 1/2, 1, 3/2, 2, 3, 4, 6. Weight (o, i) is the signed magnitude of
   code i mod 2 of word 2048·o + i/2, times the scale 256·o + i/16 (one scale per sixteen columns). The result at
   (b, s, o) is the sum over i of x (b, s, i) · weight (o, i), plus bias o. -/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![4, 2048, 4096]⟩
abbrev SP : Shape := ⟨1, ![8388608]⟩
abbrev SS : Shape := ⟨1, ![1048576]⟩
abbrev SB : Shape := ⟨1, ![4096]⟩
abbrev SW : Shape := ⟨2, ![4096, 4096]⟩

/-- Bits 4–7 of a word (an arithmetic shift by 4 keeps them in place below the mask). -/
def hiNib (p : BitVec 32) : BitVec 32 := (p.sshiftRight' 4#32) &&& 15#32
/-- Bits 0–3 of a word. -/
def loNib (p : BitVec 32) : BitVec 32 := p &&& 15#32
/-- The code in column parity e of a word: the high nibble for an even column, the low one for an odd column. -/
def nib (p : BitVec 32) (e : Nat) : BitVec 32 := if e = 0 then hiNib p else loNib p
/-- A code's sign bit (bit 3). -/
def signBit (n : BitVec 32) : BitVec 32 := (n.sshiftRight' 3#32) &&& 1#32
/-- A code's magnitude index (bits 0–2). -/
def code (n : BitVec 32) : BitVec 32 := n &&& 7#32

/-- The magnitude a 3-bit index selects: 0, 1/2, 1, 3/2, 2, 3, 4, 6 (as the single-precision words that denote them). -/
def magOf (c : BitVec 32) : EReal :=
  if c = 7#32 then Ideal.ofBits .f32 0x40C00000#32
  else if c = 6#32 then Ideal.ofBits .f32 0x40800000#32
  else if c = 5#32 then Ideal.ofBits .f32 0x40400000#32
  else if c = 4#32 then Ideal.ofBits .f32 0x40000000#32
  else if c = 3#32 then Ideal.ofBits .f32 0x3FC00000#32
  else if c = 2#32 then Ideal.ofBits .f32 0x3F800000#32
  else if c = 1#32 then Ideal.ofBits .f32 0x3F000000#32
  else Ideal.ofBits .f32 0x00000000#32

/-- A code's value: its magnitude, negated when the sign bit is set. -/
def nibVal (n : BitVec 32) : EReal := if signBit n = 1#32 then -(magOf (code n)) else magOf (code n)

/-- The packed word that holds weight (o, ·)'s column pair c. -/
def pIdx (o : Fin 4096) (c : Fin 2048) : Fin 8388608 := ⟨2048 * o.val + c.val, by have := o.isLt; have := c.isLt; omega⟩
/-- The scale of weight row o's block j of sixteen columns. -/
def sIdx (o : Fin 4096) (j : Fin 256) : Fin 1048576 := ⟨256 * o.val + j.val, by have := o.isLt; have := j.isLt; omega⟩

/-- Weight (o, i). -/
def wAt (p : IVec SP 32) (s : FVec Ideal SS .f32) (o i : Fin 4096) : EReal :=
  nibVal (nib (p (ix1 (pIdx o ⟨i.val / 2, by have := i.isLt; omega⟩))) (i.val % 2))
    * s (ix1 (sIdx o ⟨i.val / 16, by have := i.isLt; omega⟩))

/-- The result at (b, s, o): row (b, s) of x against weight row o, plus the bias. -/
def outAt (x : FVec Ideal SX .f32) (p : IVec SP 32) (s : FVec Ideal SS .f32) (bias : FVec Ideal SB .f32)
    (b : Fin 4) (r : Fin 2048) (o : Fin 4096) : EReal :=
  (∑ i : Fin 4096, x (ix3 b r i) * wAt p s o i) + bias (ix1 o)

/-- The whole result array. -/
def out (x : FVec Ideal SX .f32) (p : IVec SP 32) (s : FVec Ideal SS .f32) (bias : FVec Ideal SB .f32) :
    FVec Ideal SX .f32 := fun j => outAt x p s bias (j 0) (j 1) (j 2)

/-- The whole weight array. -/
def wArr (p : IVec SP 32) (s : FVec Ideal SS .f32) : FVec Ideal SW .bf16 := fun j => wAt p s (j 0) (j 1)

end Cert.Spec

end
-- ==== Proof.KI.WValue.lean ====
/- The dequantised weight array at the ideal instance: after region 0 the output array holds, at (o, i), the
   specification's weight of the packed words and scales the region was entered with.

   The body's stored block is read one element at a time. Column j = 2c + e of row r pairs the two codes of word (r, c):
   the even column takes bits 4–7, the odd column bits 0–3 (the mask with 255 the body applies first changes neither),
   each code goes through the same eight-way choice of magnitude and the sign bit, and the product takes the scale
   of column block c / 8 = j / 16. Block t of the output holds rows 128t … 128t + 127, the input blocks at point t are
   the same rows of the two re-laid inputs, and the 32 blocks cover the array. -/
import proofs.«417664_j21938692948405_3_alg».proof.Proof.KI.Region0
import proofs.«417664_j21938692948405_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

namespace Weights

/-! ## Words: the mask with 255 changes neither nibble; the shifts are in range; a select on an equality test -/

/-- Bits 0–3 of a word are bits 0–3 of its low byte. -/
theorem and255_and15 (w : BitVec 32) : (w &&& 255#32) &&& 15#32 = w &&& 15#32 := by
  rw [BitVec.and_assoc]; rfl

/-- Bits 4–7 of a word are bits 4–7 of its low byte: the shift distributes over the mask, and 255 shifted by 4 is 15. -/
theorem sshr4_and255_and15 (w : BitVec 32) :
    ((w &&& 255#32).sshiftRight' 4#32) &&& 15#32 = (w.sshiftRight' 4#32) &&& 15#32 := by
  show ((w &&& 255#32).sshiftRight 4) &&& 15#32 = (w.sshiftRight 4) &&& 15#32
  rw [BitVec.sshiftRight_and_distrib, BitVec.and_assoc]
  rfl

/-- An arithmetic shift by 4 is in range. -/
theorem shrsi_four (x : BitVec 32) : IntOp.shrsi .vector x 4#32 = x.sshiftRight' 4#32 := by
  unfold IntOp.shrsi; rw [if_pos (by decide)]

/-- An arithmetic shift by 3 is in range. -/
theorem shrsi_three (x : BitVec 32) : IntOp.shrsi .vector x 3#32 = x.sshiftRight' 3#32 := by
  unfold IntOp.shrsi; rw [if_pos (by decide)]

/-- A select on "c equals k" is the if on that equation. -/
theorem select_cmpi_eq {α : Type} (c k : BitVec 32) (a b : α) :
    Scalar.select (IntOp.cmpi .eq c k) a b = if c = k then a else b := by
  unfold Scalar.select IntOp.cmpi
  by_cases h : c = k
  · subst h; simp
  · have hb : (c == k) = false := beq_eq_false_iff_ne.mpr h
    rw [if_neg h]
    simp [hb]

/-! ## One code's value as the body computes it -/

/-- The body's eight-way choice of a magnitude, outermost test first (the innermost two arms are both zero). -/
def selMag (c : BitVec 32) : EReal :=
  Scalar.select (IntOp.cmpi .eq c 7#32) (Ideal.ofBits .f32 0x40C00000#32)
  (Scalar.select (IntOp.cmpi .eq c 6#32) (Ideal.ofBits .f32 0x40800000#32)
  (Scalar.select (IntOp.cmpi .eq c 5#32) (Ideal.ofBits .f32 0x40400000#32)
  (Scalar.select (IntOp.cmpi .eq c 4#32) (Ideal.ofBits .f32 0x40000000#32)
  (Scalar.select (IntOp.cmpi .eq c 3#32) (Ideal.ofBits .f32 0x3FC00000#32)
  (Scalar.select (IntOp.cmpi .eq c 2#32) (Ideal.ofBits .f32 0x3F800000#32)
  (Scalar.select (IntOp.cmpi .eq c 1#32) (Ideal.ofBits .f32 0x3F000000#32)
  (Scalar.select (IntOp.cmpi .eq c 0#32) (Ideal.ofBits .f32 0x00000000#32) (Ideal.ofBits .f32 0x00000000#32))))))))

/-- It is the specification's magnitude. -/
theorem selMag_eq (c : BitVec 32) : selMag c = Cert.Spec.magOf c := by
  unfold selMag Cert.Spec.magOf
  simp only [select_cmpi_eq, ite_self]

/-- The body's signed value of a 4-bit code: zero minus the magnitude when bit 3 is set. -/
def selVal (n : BitVec 32) : EReal :=
  Scalar.select (IntOp.cmpi .eq (IntOp.andi (IntOp.shrsi .vector n 3#32) 1#32) 1#32)
    (Ideal.ofBits .f32 0x00000000#32 - selMag (IntOp.andi n 7#32)) (selMag (IntOp.andi n 7#32))

/-- It is the specification's value of the code. -/
theorem selVal_eq (n : BitVec 32) : selVal n = Cert.Spec.nibVal n := by
  unfold selVal Cert.Spec.nibVal Cert.Spec.signBit Cert.Spec.code
  rw [select_cmpi_eq, selMag_eq, shrsi_three, Ideal.ofBits_zero_f32, zero_sub]
  rfl

/-! ## The two halves of the stored block and the scales spread over the columns -/

/-- The even columns' signed magnitudes: the code in bits 4–7 of each word. -/
def hiVec (v0 : Vec Ideal S128x2048 .i32) : FVec Ideal S128x2048 .f32 :=
  k0_pay9 (F := Ideal) (k0_pay5 (F := Ideal) v0) (k0_pay6 (F := Ideal) v0) (k0_pay7 (F := Ideal) v0) k0_pay8

/-- The odd columns' signed magnitudes: the code in bits 0–3 of each word. -/
def loVec (v0 : Vec Ideal S128x2048 .i32) : FVec Ideal S128x2048 .f32 :=
  fun i => selVal (k0_pay4 (F := Ideal) v0 i)

/-- The scales, one per eight words of a row, repeated over the words. -/
def spread (v98 : Vec Ideal S128x256 .f32) : FVec Ideal S128x2048 .f32 :=
  shapeCast S128x2048 (broadcastTo S128x256x8 (shapeCast S128x256x1 (shapeCast S128x256x1
    (shapeCast S128x256 v98 shapeCasts_S128x256_S128x256) shapeCasts_S128x256_S128x256x1) shapeCasts_S128x256x1_S128x256x1)
    broadcasts_S128x256x1_S128x256x8) shapeCasts_S128x256x8_S128x2048

/-- The stored block: the two halves, each times the spread scales, interleaved column by column. -/
theorem deq0_eq (v0 : Vec Ideal S128x2048 .i32) (v98 : Vec Ideal S128x256 .f32) :
    deq0 (F := Ideal) v0 v98 = shapeCast S128x4096 (concatenate S128x2048x2 2
      [⟨S128x2048x1, shapeCast S128x2048x1 (fun i => hiVec v0 i * spread v98 i) shapeCasts_S128x2048_S128x2048x1⟩,
       ⟨S128x2048x1, shapeCast S128x2048x1 (fun i => loVec v0 i * spread v98 i) shapeCasts_S128x2048_S128x2048x1⟩]
      concatenates_S128x2048x1_S128x2048x1_S128x2048x2_d2) shapeCasts_S128x2048x2_S128x4096 := rfl

/-- The high code of a word through the body's mask, shift and mask, then the choice: the specification's value. -/
theorem hi_code (w : BitVec 32) :
    selVal (IntOp.andi (IntOp.shrsi .vector (IntOp.andi w 255#32) 4#32) 15#32) = Cert.Spec.nibVal (Cert.Spec.hiNib w) := by
  rw [selVal_eq, shrsi_four]
  show Cert.Spec.nibVal (((w &&& 255#32).sshiftRight' 4#32) &&& 15#32) = _
  rw [sshr4_and255_and15]
  rfl

/-- The low code of a word through the body's two masks, then the choice: the specification's value. -/
theorem lo_code (w : BitVec 32) :
    selVal (IntOp.andi (IntOp.andi w 255#32) 15#32) = Cert.Spec.nibVal (Cert.Spec.loNib w) := by
  rw [selVal_eq]
  show Cert.Spec.nibVal ((w &&& 255#32) &&& 15#32) = _
  rw [and255_and15]
  rfl

/-- The even half at a word is the value of the word's high code. -/
theorem hiVec_apply (v0 : Vec Ideal S128x2048 .i32) (i : S128x2048.Idx) :
    hiVec v0 i = Cert.Spec.nibVal (Cert.Spec.hiNib (v0 i)) := by
  have h : shapeCast S128x2048 v0 shapeCasts_S128x2048_S128x2048 = v0 := shapeCast_self _ _
  have e : hiVec v0 i = selVal (IntOp.andi (IntOp.shrsi .vector
      (IntOp.andi (shapeCast S128x2048 v0 shapeCasts_S128x2048_S128x2048 i) 255#32) 4#32) 15#32) := rfl
  rw [e, h]
  exact hi_code (v0 i)

/-- The odd half at a word is the value of the word's low code. -/
theorem loVec_apply (v0 : Vec Ideal S128x2048 .i32) (i : S128x2048.Idx) :
    loVec v0 i = Cert.Spec.nibVal (Cert.Spec.loNib (v0 i)) := by
  have h : shapeCast S128x2048 v0 shapeCasts_S128x2048_S128x2048 = v0 := shapeCast_self _ _
  have e : loVec v0 i = selVal (IntOp.andi
      (IntOp.andi (shapeCast S128x2048 v0 shapeCasts_S128x2048_S128x2048 i) 255#32) 15#32) := rfl
  rw [e, h]
  exact lo_code (v0 i)

/-! ## The layout operations at explicit coordinates -/

/-- Two [128, 2048] halves interleaved into [128, 4096] read, at an even column 2c, the first half at c. -/
theorem interleave_even {α : Type} (a b : S128x2048.Idx → α)
    (h1 h1' : S128x2048.ShapeCasts S128x2048x1)
    (hc : Shape.Concatenates [S128x2048x1, S128x2048x1] S128x2048x2 2) (h2 : S128x2048x2.ShapeCasts S128x4096)
    (r : Fin 128) (c : Fin 2048) (j : Fin 4096) (hj : j.val = 2 * c.val) :
    shapeCast S128x4096 (concatenate S128x2048x2 2
      [⟨S128x2048x1, shapeCast S128x2048x1 a h1⟩, ⟨S128x2048x1, shapeCast S128x2048x1 b h1'⟩] hc) h2 (ix2 r j)
      = a (ix2 r c) := by
  refine (shapeCast_apply _ h2 (ix2 r j) (ix3 r c (0 : Fin 2)) ?_).trans ?_
  · rw [Shape.rowMajor_val_three, Shape.rowMajor_val_two]
    show (r.val * 2048 + c.val) * 2 + 0 = r.val * 4096 + j.val
    omega
  refine (concatenate_pair_apply_left (t := S128x2048x2) (s₁ := S128x2048x1) (s₂ := S128x2048x1) 2 _ _ hc (ix3 r c (0 : Fin 2)) rfl (ix3 r c (0 : Fin 1)) ?_).trans ?_
  · intro d
    match d with
    | ⟨0, _⟩ => rfl
    | ⟨1, _⟩ => rfl
    | ⟨2, _⟩ => rfl
  refine shapeCast_apply _ h1 (ix3 r c (0 : Fin 1)) (ix2 r c) ?_
  rw [Shape.rowMajor_val_three, Shape.rowMajor_val_two]
  show r.val * 2048 + c.val = (r.val * 2048 + c.val) * 1 + 0
  omega

/-- … and at an odd column 2c + 1 the second half at c. -/
theorem interleave_odd {α : Type} (a b : S128x2048.Idx → α)
    (h1 h1' : S128x2048.ShapeCasts S128x2048x1)
    (hc : Shape.Concatenates [S128x2048x1, S128x2048x1] S128x2048x2 2) (h2 : S128x2048x2.ShapeCasts S128x4096)
    (r : Fin 128) (c : Fin 2048) (j : Fin 4096) (hj : j.val = 2 * c.val + 1) :
    shapeCast S128x4096 (concatenate S128x2048x2 2
      [⟨S128x2048x1, shapeCast S128x2048x1 a h1⟩, ⟨S128x2048x1, shapeCast S128x2048x1 b h1'⟩] hc) h2 (ix2 r j)
      = b (ix2 r c) := by
  refine (shapeCast_apply _ h2 (ix2 r j) (ix3 r c (1 : Fin 2)) ?_).trans ?_
  · rw [Shape.rowMajor_val_three, Shape.rowMajor_val_two]
    show (r.val * 2048 + c.val) * 2 + 1 = r.val * 4096 + j.val
    omega
  refine (concatenate_pair_apply_right (t := S128x2048x2) (s₁ := S128x2048x1) (s₂ := S128x2048x1) 2 _ _ hc (ix3 r c (1 : Fin 2)) rfl rfl (ix3 r c (0 : Fin 1)) ?_ ?_).trans ?_
  · intro d hd
    match d with
    | ⟨0, _⟩ => rfl
    | ⟨1, _⟩ => rfl
    | ⟨2, _⟩ => exact absurd rfl hd
  · rfl
  refine shapeCast_apply _ h1' (ix3 r c (0 : Fin 1)) (ix2 r c) ?_
  rw [Shape.rowMajor_val_three, Shape.rowMajor_val_two]
  show r.val * 2048 + c.val = (r.val * 2048 + c.val) * 1 + 0
  omega

/-- The spread scales at word c of row r: the row's scale of block c / 8. -/
theorem spread_apply (v98 : Vec Ideal S128x256 .f32) (r : Fin 128) (c : Fin 2048) (q : Fin 256) (hq : q.val = c.val / 8) :
    spread v98 (ix2 r c) = v98 (ix2 r q) := by
  unfold spread
  rw [shapeCast_self v98 shapeCasts_S128x256_S128x256, shapeCast_self _ shapeCasts_S128x256x1_S128x256x1]
  refine (shapeCast_apply _ shapeCasts_S128x256x8_S128x2048 (ix2 r c)
    (ix3 r q (⟨c.val % 8, Nat.mod_lt _ (by decide)⟩ : Fin 8)) ?_).trans ?_
  · rw [Shape.rowMajor_val_three, Shape.rowMajor_val_two]
    show (r.val * 256 + q.val) * 8 + c.val % 8 = r.val * 2048 + c.val
    omega
  refine (broadcastTo_apply _ broadcasts_S128x256x1_S128x256x8
    (ix3 r q (⟨c.val % 8, Nat.mod_lt _ (by decide)⟩ : Fin 8)) (ix3 r q (0 : Fin 1)) ?_).trans ?_
  · intro d
    match d with
    | ⟨0, _⟩ => rfl
    | ⟨1, _⟩ => rfl
    | ⟨2, _⟩ => rfl
  refine shapeCast_apply _ shapeCasts_S128x256_S128x256x1 (ix3 r q (0 : Fin 1)) (ix2 r q) ?_
  rw [Shape.rowMajor_val_three, Shape.rowMajor_val_two]
  show r.val * 256 + q.val = (r.val * 256 + q.val) * 1 + 0
  omega

/-! ## The stored block at an index -/

/-- Column j = 2c + e of row r: the value of code e of word (r, c), times the scale of column block c / 8. -/
theorem deq0_apply (v0 : Vec Ideal S128x2048 .i32) (v98 : Vec Ideal S128x256 .f32) (r : Fin 128) (c : Fin 2048)
    (q : Fin 256) (j : Fin 4096) (e : Nat) (he : e < 2) (hj : j.val = 2 * c.val + e) (hq : q.val = c.val / 8) :
    deq0 (F := Ideal) v0 v98 (ix2 r j) = Cert.Spec.nibVal (Cert.Spec.nib (v0 (ix2 r c)) e) * v98 (ix2 r q) := by
  rw [deq0_eq]
  rcases (by omega : e = 0 ∨ e = 1) with rfl | rfl
  · refine (interleave_even _ _ _ _ _ _ r c j (by omega)).trans ?_
    show hiVec v0 (ix2 r c) * spread v98 (ix2 r c) = _
    rw [hiVec_apply, spread_apply v98 r c q hq]
    rfl
  · refine (interleave_odd _ _ _ _ _ _ r c j (by omega)).trans ?_
    show loVec v0 (ix2 r c) * spread v98 (ix2 r c) = _
    rw [loVec_apply, spread_apply v98 r c q hq]
    rfl

/-- Row r of a block whose words and scales are row o of the flat inputs holds weight row o. -/
theorem deq0_row (X0 : Vec Ideal S128x2048 .i32) (X1 : Vec Ideal S128x256 .f32)
    (p : IVec S8388608 32) (s : FVec Ideal S1048576 .f32) (o : Fin 4096) (r : Fin 128)
    (h0 : ∀ k : Fin 2048, X0 (ix2 r k) = p (ix1 (Cert.Spec.pIdx o k)))
    (h1 : ∀ q : Fin 256, X1 (ix2 r q) = s (ix1 (Cert.Spec.sIdx o q)))
    (j : Fin 4096) : deq0 (F := Ideal) X0 X1 (ix2 r j) = Cert.Spec.wAt p s o j := by
  have hj : j.val < 4096 := j.isLt
  unfold Cert.Spec.wAt
  rw [deq0_apply X0 X1 r ⟨j.val / 2, by omega⟩ ⟨j.val / 16, by omega⟩ j (j.val % 2) (by omega)
    (by show j.val = 2 * (j.val / 2) + j.val % 2; omega) (by show j.val / 16 = j.val / 2 / 8; omega), h0, h1]

/-! ## The re-laid inputs at a row and a column -/

/-- The packed words as [4096, 2048]: row o, column k is word 2048·o + k. -/
theorem words_apply (p : IVec S8388608 32) (h : S8388608.ShapeCasts S4096x2048) (o : Fin 4096) (k : Fin 2048) :
    shapeCast S4096x2048 p h (ix2 o k) = p (ix1 (Cert.Spec.pIdx o k)) := by
  refine shapeCast_apply p h (ix2 o k) (ix1 (Cert.Spec.pIdx o k)) ?_
  rw [Shape.rowMajor_val_one, Shape.rowMajor_val_two]
  show 2048 * o.val + k.val = o.val * 2048 + k.val
  omega

/-- The scales as [4096, 256]: row o, column q is scale 256·o + q. -/
theorem scales_apply (s : FVec Ideal S1048576 .f32) (h : S1048576.ShapeCasts S4096x256) (o : Fin 4096) (q : Fin 256) :
    shapeCast S4096x256 s h (ix2 o q) = s (ix1 (Cert.Spec.sIdx o q)) := by
  refine shapeCast_apply s h (ix2 o q) (ix1 (Cert.Spec.sIdx o q)) ?_
  rw [Shape.rowMajor_val_one, Shape.rowMajor_val_two]
  show 256 * o.val + q.val = o.val * 256 + q.val
  omega

/-! ## From blocks to the array -/

/-- The printed index maps over the grid: every window's block at point t is block row t, block column 0. -/
theorem index_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The words' block at point t, row r, is row 128t + r of the re-laid words. -/
theorem iblk0_words (c : Dev nD) (t : Fin cfg0.N) (r : Fin 128) (k : Fin 2048) (o : Fin 4096)
    (ho : o.val = 128 * t.val + r.val) :
    (iblk0 (F := Ideal) V c 0 t : Vec Ideal S128x2048 .i32) (ix2 r k) = (V c main_v0 : IVec S4096x2048 32) (ix2 o k) := by
  obtain ⟨e0, e1, -⟩ := index_rows t
  unfold iblk0
  rw [View.read_apply]
  show V c main_v0 _ = V c main_v0 _
  refine congrArg (V c main_v0) ?_
  funext a
  apply Fin.ext
  match a with
  | ⟨0, _⟩ => show win0_0.index t (0 : Fin 2) * 128 + 1 * r.val = o.val; rw [e0, ho]; omega
  | ⟨1, _⟩ => show win0_0.index t (1 : Fin 2) * 2048 + 1 * k.val = k.val; rw [e1]; omega

/-- The scales' block at point t, row r, is row 128t + r of the re-laid scales. -/
theorem iblk0_scales (c : Dev nD) (t : Fin cfg0.N) (r : Fin 128) (q : Fin 256) (o : Fin 4096)
    (ho : o.val = 128 * t.val + r.val) :
    (iblk0 (F := Ideal) V c 1 t : Vec Ideal S128x256 .f32) (ix2 r q) = (V c main_v1 : FVec Ideal S4096x256 .f32) (ix2 o q) := by
  obtain ⟨-, -, e0, e1, -⟩ := index_rows t
  unfold iblk0
  rw [View.read_apply]
  show V c main_v1 _ = V c main_v1 _
  refine congrArg (V c main_v1) ?_
  funext a
  apply Fin.ext
  match a with
  | ⟨0, _⟩ => show win0_1.index t (0 : Fin 2) * 128 + 1 * r.val = o.val; rw [e0, ho]; omega
  | ⟨1, _⟩ => show win0_1.index t (1 : Fin 2) * 256 + 1 * q.val = q.val; rw [e1]; omega

/-- What point t writes back is block t of the specification's weight array. -/
theorem flushed0_2_eq (c : Dev nD) (p : IVec S8388608 32) (s : FVec Ideal S1048576 .f32)
    (hp : V c main_v0 = shapeCast S4096x2048 p Facts₀.shapeCasts_S8388608_S4096x2048)
    (hs : V c main_v1 = shapeCast S4096x256 s Facts₀.shapeCasts_S1048576_S4096x256) (t : Fin cfg0.N) :
    (dat0 (F := Ideal) V c).flushed 2 t = ((cfg0.win 2).blk t).view.read (Elt Ideal) (Cert.Spec.wArr p s) := by
  show (cfg0.win 2).cut (grid0.coords t) ((dat0 (F := Ideal) V c).after 2 t) = _
  rw [after0_2]
  funext j
  have hj0 : (j 0).val < 128 := (j 0).isLt
  have hj1 : (j 1).val < 4096 := (j 1).isLt
  have ht : t.val < 32 := Nat.lt_of_lt_of_eq t.isLt N_0
  obtain ⟨-, -, -, -, e4, e5⟩ := index_rows t
  have hx : (cfg0.win 2).xinj (grid0.coords t) j = ix2 (⟨(j 0).val, hj0⟩ : Fin 128) (⟨(j 1).val, hj1⟩ : Fin 4096) := by
    funext a
    match a with
    | ⟨0, _⟩ => rfl
    | ⟨1, _⟩ => rfl
  have hemb : ((cfg0.win 2).blk t).view.emb j
      = ix2 (⟨128 * t.val + (j 0).val, by omega⟩ : Fin 4096) (⟨(j 1).val, hj1⟩ : Fin 4096) := by
    funext a
    apply Fin.ext
    match a with
    | ⟨0, _⟩ => show win0_2.index t (0 : Fin 2) * 128 + 1 * (j 0).val = 128 * t.val + (j 0).val; rw [e4]; omega
    | ⟨1, _⟩ => show win0_2.index t (1 : Fin 2) * 4096 + 1 * (j 1).val = (j 1).val; rw [e5]; omega
  rw [View.read_apply]
  show deq0 (F := Ideal) (iblk0 (F := Ideal) V c 0 t) (iblk0 (F := Ideal) V c 1 t) ((cfg0.win 2).xinj (grid0.coords t) j)
    = Cert.Spec.wArr p s (((cfg0.win 2).blk t).view.emb j)
  rw [hx, hemb]
  refine deq0_row (iblk0 (F := Ideal) V c 0 t) (iblk0 (F := Ideal) V c 1 t) p s
    (⟨128 * t.val + (j 0).val, by omega⟩ : Fin 4096) (⟨(j 0).val, hj0⟩ : Fin 128) (fun k => ?_) (fun q => ?_)
    (⟨(j 1).val, hj1⟩ : Fin 4096)
  · rw [iblk0_words V c t ⟨(j 0).val, hj0⟩ k ⟨128 * t.val + (j 0).val, by omega⟩ rfl, hp]
    exact words_apply p _ _ k
  · rw [iblk0_scales V c t ⟨(j 0).val, hj0⟩ q ⟨128 * t.val + (j 0).val, by omega⟩ rfl, hs]
    exact scales_apply s _ _ q

end

/-- An index of the array is in point t's block iff each coordinate is in the block's range on its axis. -/
theorem mem_blk0_2 (t : Fin cfg0.N) (i : S4096x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v2).slice (win0_2.rect t)).set ↔ _
  rw [View.set_slice_whole, Rect.mem_set_unit]
  exact Iff.rfl

/-- Every index of the array is in the block of the point that holds its row: point (row / 128). -/
theorem cover0_2 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, htv⟩ : ∃ t : Fin cfg0.N, t.val = (i 0).val / 128 :=
    ⟨⟨(i 0).val / 128, by rw [show cfg0.N = 32 from N_0]; omega⟩, rfl⟩
  obtain ⟨-, -, -, -, e4, e5⟩ := index_rows t
  refine ⟨t, flush0_2 t, ?_⟩
  rw [mem_blk0_2]
  intro a
  match a with
  | ⟨0, _⟩ =>
    show win0_2.index t (0 : Fin 2) * 128 ≤ (i 0).val ∧ (i 0).val < win0_2.index t (0 : Fin 2) * 128 + 128
    rw [e4, htv]; omega
  | ⟨1, _⟩ =>
    show win0_2.index t (1 : Fin 2) * 4096 ≤ (i 1).val ∧ (i 1).val < win0_2.index t (1 : Fin 2) * 4096 + 4096
    rw [e5]; omega

end Weights

open Weights in
/-- Entered with the packed words p and the scales s re-laid as rows, region 0 leaves the specification's weights. -/
theorem w_value (V : (c : Dev nD) → (b : Ref sig .tc) → Buf (Elt Ideal) ((c : Thread nD τ).loc b)) (c : Dev nD)
    (p : IVec S8388608 32) (s : FVec Ideal S1048576 .f32)
    (hp : V c main_v0 = shapeCast S4096x2048 p Facts₀.shapeCasts_S8388608_S4096x2048)
    (hs : V c main_v1 = shapeCast S4096x256 s Facts₀.shapeCasts_S1048576_S4096x256)
    (o i : Fin 4096) :
    ((dat0 (F := Ideal) V c).arrAt 2 cfg0.N : FVec Ideal S4096x4096 .bf16) (ix2 o i) = Cert.Spec.wAt p s o i := by
  have h := (dat0 (F := Ideal) V c).arrAt_eq_of_cover 2 (Cert.Spec.wArr p s)
    (fun t _ => flushed0_2_eq V c p s hp hs t) cover0_2
  exact congrFun h (ix2 o i)

end Cert.KernelIdeal.Hand

end
-- ==== Proof.LibBlockSum.lean ====
/- Sums over consecutive blocks, and a running sum as a finite sum.

   A sum over B blocks of R consecutive positions each is the sum over all B · R positions; a sequence that starts at
   `0 + c 0` and adds `c (n + 1)` at each step is, after step n, the sum of `c` over the first n + 1 steps. Both hold in
   any commutative additive monoid (the extended reals are one: regrouping a sum needs no finiteness). -/
import Mathlib.Algebra.BigOperators.Group.Finset.Basic
import Mathlib.Algebra.BigOperators.Fin
import Mathlib.Data.Fintype.BigOperators

namespace Cert.BlockSum

open scoped BigOperators

/-- Position `r` of block `t`, among all `N = B · R` positions. -/
def pos {B R N : Nat} (hN : B * R = N) (t : Fin B) (r : Fin R) : Fin N :=
  ⟨R * t.val + r.val, by
    have h1 := t.isLt
    have h2 := r.isLt
    have h3 : R * t.val + r.val < R * (t.val + 1) := by rw [Nat.mul_succ]; omega
    have h4 : R * (t.val + 1) ≤ R * B := Nat.mul_le_mul_left R h1
    rw [← hN, Nat.mul_comm B R]
    omega⟩

/-- The sum over the blocks of the sums over a block's positions is the sum over all positions. -/
theorem sum_blocks {M : Type*} [AddCommMonoid M] {B R N : Nat} (hN : B * R = N) (f : Fin N → M) :
    ∑ t : Fin B, ∑ r : Fin R, f (pos hN t r) = ∑ n : Fin N, f n := by
  subst hN
  rw [← Fintype.sum_prod_type' (fun t r => f (pos rfl t r)), ← Equiv.sum_comp finProdFinEquiv f]
  refine Finset.sum_congr rfl fun x _ => ?_
  congr 1
  apply Fin.ext
  show R * x.1.val + x.2.val = x.2.val + R * x.1.val
  exact Nat.add_comm _ _

/-- The block that holds position `n`, and `n`'s place in it. -/
theorem pos_div_mod {B R N : Nat} (hN : B * R = N) (hR : 0 < R) (n : Fin N) :
    ∃ (t : Fin B) (r : Fin R), n = pos hN t r ∧ t.val = n.val / R ∧ r.val = n.val % R := by
  have hn : n.val / R < B := by
    rw [Nat.div_lt_iff_lt_mul hR, hN]
    exact n.isLt
  refine ⟨⟨n.val / R, hn⟩, ⟨n.val % R, Nat.mod_lt _ hR⟩, ?_, rfl, rfl⟩
  apply Fin.ext
  show n.val = R * (n.val / R) + n.val % R
  exact (Nat.div_add_mod n.val R).symm

/-- A running sum from `0 + c 0`, adding `c (n + 1)` at step n + 1, is the sum over the first n + 1 steps. -/
theorem running_sum {M : Type*} [AddCommMonoid M] (c acc : ℕ → M) (h0 : acc 0 = 0 + c 0)
    (hs : ∀ n, acc (n + 1) = acc n + c (n + 1)) (n : ℕ) : acc n = ∑ t ∈ Finset.range (n + 1), c t := by
  induction n with
  | zero =>
    show acc 0 = ∑ t ∈ Finset.range 1, c t
    rw [h0, zero_add, Finset.sum_range_one]
  | succ n ih => rw [hs, ih, Finset.sum_range_succ c (n + 1)]

/-- The same sum over `Fin`: the first B steps as a sum over `Fin B`. -/
theorem sum_range_eq_sum_fin {M : Type*} [AddCommMonoid M] (B : ℕ) (c : ℕ → M) :
    ∑ t ∈ Finset.range B, c t = ∑ t : Fin B, c t.val :=
  Finset.sum_range c

end Cert.BlockSum
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KI.MMValue.lean ====
/- The blocked matrix product at the ideal instance: after region 1 the output array holds, at (a, b), the sum over
   all 4096 columns k of X (a, k) · W (b, k), plus the bias row's entry b — the eight column blocks' partial sums
   accumulated in order from zero. -/
import proofs.«417664_j21938692948405_3_alg».proof.Proof.KI.Region1
import proofs.«417664_j21938692948405_3_alg».proof.Proof.LibBlockSum
import proofs.«417664_j21938692948405_3_alg».proof.Proof.LibDotPlain
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

namespace MM

/-! ## A row of one operand against a row of the other

Both operands of the kernel's product contract their second axis and keep their first: the result at (a, b) pairs row a
of the left operand with row b of the right one. -/

/-- Rows times rows: the contraction sum at (a, b) is the sum over k of l (a, k) · r (b, k). -/
theorem sum_rows_rows {M K N : Nat} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (l : (⟨2, ![M, K]⟩ : Shape).Idx → EReal) (r : (⟨2, ![N, K]⟩ : Shape).Idx → EReal) (a : Fin M) (b : Fin N) :
    (∑ k : d.contr.Idx, l (d.lhsIdx (ix2 a b) k) * r (d.rhsIdx (ix2 a b) k)) = ∑ k : Fin K, l (ix2 a k) * r (ix2 b k) := by
  have hr : d.contr.rank = 1 := Cert.DotPlain.contr_rank_one d hlc
  have hs : d.contr.size ⟨0, by omega⟩ = K := Cert.DotPlain.contr_size_zero d hlc
  -- the contraction index is one coordinate; each operand's index is then read axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (Cert.DotPlain.lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 b k := by
    funext ax
    match ax with
    | ⟨0, _⟩ => exact Fin.ext (Cert.DotPlain.rhsIdx_val_nonContr d hlb hrb hln hrn _ _ Nat.one_lt_two)
    | ⟨1, _⟩ => exact Fin.ext ((d.rhsIdx_val_of_single hrc _ _).trans (contrEquiv1_symm_val d K hr hs k))
  rw [hl, hrr]

/-- The kernel's product into the zero accumulator, rows times rows, at an index. -/
theorem matmul_zero_rows_rows {M K N : Nat} {φ₁ φ₂ : FTy} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (sum_rows_rows d hlb hrb hlc hrc hln hrn l r a b)

/-! ## The three payloads at an index -/

/-- The block the accumulator restarts from is zero everywhere. -/
theorem pay1_apply (r : Fin 1024) (q : Fin 2048) : (k1_pay1 (F := Ideal)) (ix2 r q) = 0 := by
  unfold k1_pay1
  simp only [shapeCast_self]
  exact Ideal.ofBits_zero_f32

/-- One point's update: the accumulator plus the product of the point's x block (its rows) with the point's w block
    (its rows), over the block's 512 columns. The narrowing of x to the weights' format is the identity on extended reals. -/
theorem pay2_apply (x : FVec Ideal S1024x512 .f32) (w : FVec Ideal S2048x512 .bf16) (acc : FVec Ideal S1024x2048 .f32)
    (r : Fin 1024) (q : Fin 2048) :
    k1_pay2 (F := Ideal) x w acc (ix2 r q) = acc (ix2 r q) + ∑ kk : Fin 512, x (ix2 r kk) * w (ix2 q kk) := by
  unfold k1_pay2
  simp only [shapeCast_self]
  refine (addf_apply _ _ (ix2 r q)).trans ?_
  refine congrArg (fun z => acc (ix2 r q) + z) ?_
  exact matmul_zero_rows_rows (φ₁ := .bf16) (φ₂ := .bf16) dot_S1024x512_S2048x512_S1024x2048_1_1_0_0_n_n rfl rfl rfl rfl rfl rfl none
    (truncf .bf16 x bitsLt_bf16_f32) w r q

/-- The last point's write: the accumulator plus the bias row, the same for every row of the block. -/
theorem pay3_apply (acc : FVec Ideal S1024x2048 .f32) (bias : FVec Ideal S1x2048 .f32) (r : Fin 1024) (q : Fin 2048) :
    k1_pay3 (F := Ideal) acc bias (ix2 r q) = acc (ix2 r q) + bias (ix2 (0 : Fin 1) q) := by
  unfold k1_pay3
  simp only [shapeCast_self]
  refine (addf_apply _ _ (ix2 r q)).trans ?_
  exact congrArg (fun z => acc (ix2 r q) + z) (broadcastTo_1b_ab_apply bias broadcasts_S1x2048_S1024x2048 r q)

/-! ## Where a point's blocks sit in the arrays

Point t of the grid [8, 2, 8] has coordinates (t / 16, t / 8 % 2, t % 8): the row block of x and of the output, the row
block of w (the column block of the bias and of the output), and the column block of x and w. -/

theorem block_indices : ∀ t : Fin cfg1.N,
    win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

section
variable (V : (c : Dev nD) → (b : Ref sig .tc) → Buf (Elt Ideal) ((c : Thread nD τ).loc b)) (c : Dev nD)
variable (X : FVec Ideal S8192x4096 .f32) (W : FVec Ideal S4096x4096 .bf16) (B : FVec Ideal S1x4096 .f32)

/-- The x block at point t, entry (r, kk), is X at row 1024 · (t / 16) + r, column 512 · (t % 8) + kk. -/
theorem xb1_apply (hX : V c main_v3 = X) (t : Fin cfg1.N) (r : Fin 1024) (kk : Fin 512) (a : Fin 8192) (k : Fin 4096)
    (ha : a.val = 1024 * (t.val / 16) + r.val) (hk : k.val = 512 * (t.val % 8) + kk.val) :
    (xb1 (F := Ideal) V c t (ix2 r kk) : EReal) = X (ix2 a k) := by
  obtain ⟨e0, e1, -⟩ := block_indices t
  show iblk1 (F := Ideal) V c 0 t (ix2 r kk) = X (ix2 a k)
  unfold iblk1
  rw [View.read_apply]
  show V c main_v3 _ = X (ix2 a k)
  rw [hX]
  refine congrArg X ?_
  funext ax
  apply Fin.ext
  match ax with
  | ⟨0, _⟩ => show win1_0.index t (0 : Fin 2) * 1024 + 1 * r.val = a.val; rw [e0, ha]; omega
  | ⟨1, _⟩ => show win1_0.index t (1 : Fin 2) * 512 + 1 * kk.val = k.val; rw [e1, hk]; omega

/-- The w block at point t, entry (q, kk), is W at row 2048 · (t / 8 % 2) + q, column 512 · (t % 8) + kk. -/
theorem wb1_apply (hW : V c main_v2 = W) (t : Fin cfg1.N) (q : Fin 2048) (kk : Fin 512) (b : Fin 4096) (k : Fin 4096)
    (hb : b.val = 2048 * (t.val / 8 % 2) + q.val) (hk : k.val = 512 * (t.val % 8) + kk.val) :
    (wb1 (F := Ideal) V c t (ix2 q kk) : EReal) = W (ix2 b k) := by
  obtain ⟨-, -, e2, e3, -⟩ := block_indices t
  show iblk1 (F := Ideal) V c 1 t (ix2 q kk) = W (ix2 b k)
  unfold iblk1
  rw [View.read_apply]
  show V c main_v2 _ = W (ix2 b k)
  rw [hW]
  refine congrArg W ?_
  funext ax
  apply Fin.ext
  match ax with
  | ⟨0, _⟩ => show win1_1.index t (0 : Fin 2) * 2048 + 1 * q.val = b.val; rw [e2, hb]; omega
  | ⟨1, _⟩ => show win1_1.index t (1 : Fin 2) * 512 + 1 * kk.val = k.val; rw [e3, hk]; omega

/-- The bias block at point t, entry (0, q), is B at column 2048 · (t / 8 % 2) + q. -/
theorem bb1_apply (hB : V c main_v4 = B) (t : Fin cfg1.N) (q : Fin 2048) (b : Fin 4096)
    (hb : b.val = 2048 * (t.val / 8 % 2) + q.val) :
    (bb1 (F := Ideal) V c t (ix2 (0 : Fin 1) q) : EReal) = B (ix2 (0 : Fin 1) b) := by
  obtain ⟨-, -, -, -, e4, e5, -⟩ := block_indices t
  show iblk1 (F := Ideal) V c 2 t (ix2 (0 : Fin 1) q) = B (ix2 (0 : Fin 1) b)
  unfold iblk1
  rw [View.read_apply]
  show V c main_v4 _ = B (ix2 (0 : Fin 1) b)
  rw [hB]
  refine congrArg B ?_
  funext ax
  apply Fin.ext
  match ax with
  | ⟨0, _⟩ => show win1_2.index t (0 : Fin 2) * 1 + 1 * 0 = 0; rw [e4]
  | ⟨1, _⟩ => show win1_2.index t (1 : Fin 2) * 2048 + 1 * q.val = b.val; rw [e5, hb]; omega

/-! ## The accumulator after each point of a run of eight -/

theorem cols_eq : 8 * 512 = 4096 := by decide

/-- Column block s of row a of X against row b of W: the sum over the block's 512 columns (nothing past the eighth block). -/
def colBlock (a : Fin 8192) (b : Fin 4096) (s : ℕ) : EReal :=
  if h : s < 8 then
    ∑ kk : Fin 512, X (ix2 a (Cert.BlockSum.pos cols_eq ⟨s, h⟩ kk)) * W (ix2 b (Cert.BlockSum.pos cols_eq ⟨s, h⟩ kk))
  else 0

/-- The eight column blocks together are the whole row product. -/
theorem colBlock_sum (a : Fin 8192) (b : Fin 4096) :
    ∑ s ∈ Finset.range 8, colBlock X W a b s = ∑ k : Fin 4096, X (ix2 a k) * W (ix2 b k) := by
  rw [Cert.BlockSum.sum_range_eq_sum_fin 8 (colBlock X W a b),
    ← Cert.BlockSum.sum_blocks cols_eq (fun k : Fin 4096 => X (ix2 a k) * W (ix2 b k))]
  refine Finset.sum_congr rfl fun s _ => ?_
  unfold colBlock
  rw [dif_pos s.isLt]

/-- What point t adds at (r, q) is column block t % 8 of the rows its blocks come from. -/
theorem point_term (hX : V c main_v3 = X) (hW : V c main_v2 = W) (t : Fin cfg1.N) (r : Fin 1024) (q : Fin 2048)
    (a : Fin 8192) (b : Fin 4096) (ha : a.val = 1024 * (t.val / 16) + r.val) (hb : b.val = 2048 * (t.val / 8 % 2) + q.val) :
    (∑ kk : Fin 512, (xb1 (F := Ideal) V c t (ix2 r kk) : EReal) * (wb1 (F := Ideal) V c t (ix2 q kk) : EReal))
      = colBlock X W a b (t.val % 8) := by
  have h8 : t.val % 8 < 8 := Nat.mod_lt t.val (by decide)
  unfold colBlock
  rw [dif_pos h8]
  refine Finset.sum_congr rfl fun kk _ => ?_
  rw [xb1_apply V c X hX t r kk a (Cert.BlockSum.pos cols_eq ⟨t.val % 8, h8⟩ kk) ha rfl,
    wb1_apply V c W hW t q kk b (Cert.BlockSum.pos cols_eq ⟨t.val % 8, h8⟩ kk) hb rfl]

/-- After the point at place j of its run the accumulator holds, at (r, q), the first j + 1 column blocks of the product
    of X's row 1024 · (t / 16) + r with W's row 2048 · (t / 8 % 2) + q: by induction along the run, the first point
    starting from the stored zeros and every later one adding to what the point before left. -/
theorem scr1_apply (hX : V c main_v3 = X) (hW : V c main_v2 = W) :
    ∀ (j : ℕ), j < 8 → ∀ (t : Fin cfg1.N), t.val % 8 = j → ∀ (r : Fin 1024) (q : Fin 2048) (a : Fin 8192) (b : Fin 4096),
      a.val = 1024 * (t.val / 16) + r.val → b.val = 2048 * (t.val / 8 % 2) + q.val →
      (scr1 (F := Ideal) V c t.val t.isLt (ix2 r q) : EReal) = ∑ s ∈ Finset.range (j + 1), colBlock X W a b s
  | 0, _, t, ht, r, q, a, b, ha, hb => by
    show (scr1 (F := Ideal) V c t.val t.isLt (ix2 r q) : EReal) = ∑ s ∈ Finset.range 1, colBlock X W a b s
    rw [Finset.sum_range_one]
    refine (congrFun (scr1_first (F := Ideal) V c t ht) (ix2 r q)).trans ?_
    refine (pay2_apply (xb1 (F := Ideal) V c t) (wb1 (F := Ideal) V c t) (k1_pay1 (F := Ideal)) r q).trans ?_
    rw [pay1_apply r q, zero_add]
    exact (point_term V c X W hX hW t r q a b ha hb).trans (congrArg (colBlock X W a b) ht)
  | j + 1, hj, t, ht, r, q, a, b, ha, hb => by
    have hne : t.val % 8 ≠ 0 := by omega
    have hlt : t.val - 1 < cfg1.N := Nat.lt_of_le_of_lt (Nat.sub_le _ _) t.isLt
    refine (congrFun (scr1_next (F := Ideal) V c t hne) (ix2 r q)).trans ?_
    refine (pay2_apply (xb1 (F := Ideal) V c t) (wb1 (F := Ideal) V c t) (scr1 (F := Ideal) V c (t.val - 1) hlt) r q).trans ?_
    rw [Finset.sum_range_succ _ (j + 1)]
    refine congrArg₂ (fun u v : EReal => u + v) ?_ ?_
    · exact scr1_apply hX hW j (Nat.lt_of_succ_lt hj) ⟨t.val - 1, hlt⟩ (by show (t.val - 1) % 8 = j; omega) r q a b
        (by show a.val = 1024 * ((t.val - 1) / 16) + r.val; omega)
        (by show b.val = 2048 * ((t.val - 1) / 8 % 2) + q.val; omega)
    · exact (point_term V c X W hX hW t r q a b ha hb).trans (congrArg (colBlock X W a b) ht)

/-! ## From the blocks to the array -/

/-- The result at (a, b): row a of X against row b of W over all 4096 columns, plus the bias at b. -/
def mmAt (a : Fin 8192) (b : Fin 4096) : EReal :=
  (∑ k : Fin 4096, X (ix2 a k) * W (ix2 b k)) + B (ix2 (0 : Fin 1) b)

/-- The whole result array. -/
def mmOut : FVec Ideal S8192x4096 .f32 := fun i => mmAt X W B ⟨(i 0).val, idx2_lt0 i⟩ ⟨(i 1).val, idx2_lt1 i⟩

/-- What the last point of a run leaves in the output block: at (r, q) the result at the rows the run's blocks come from. -/
theorem out_block_apply (hX : V c main_v3 = X) (hW : V c main_v2 = W) (hB : V c main_v4 = B) (t : Fin cfg1.N)
    (h7 : t.val % 8 = 7) (r : Fin 1024) (q : Fin 2048) (a : Fin 8192) (b : Fin 4096)
    (ha : a.val = 1024 * (t.val / 16) + r.val) (hb : b.val = 2048 * (t.val / 8 % 2) + q.val) :
    k1_pay3 (F := Ideal) (scr1 (F := Ideal) V c t.val t.isLt) (bb1 (F := Ideal) V c t) (ix2 r q) = mmAt X W B a b := by
  refine (pay3_apply (scr1 (F := Ideal) V c t.val t.isLt) (bb1 (F := Ideal) V c t) r q).trans ?_
  unfold mmAt
  refine congrArg₂ (fun u v : EReal => u + v) ?_ ?_
  · exact (scr1_apply V c X W hX hW 7 (by decide) t h7 r q a b ha hb).trans (colBlock_sum X W a b)
  · exact bb1_apply V c B hB t q b hb

/-- What a writing point writes back is its block of the result array. -/
theorem flushed_eq (hX : V c main_v3 = X) (hW : V c main_v2 = W) (hB : V c main_v4 = B) (t : Fin cfg1.N)
    (hf : (cfg1.win 3).flush t = true) :
    (dat1 (F := Ideal) V c).flushed 3 t = ((cfg1.win 3).blk t).view.read (Elt Ideal) (mmOut X W B) := by
  have h7 : t.val % 8 = 7 := (flush1_3 t).mp hf
  obtain ⟨-, -, -, -, -, -, e6, e7⟩ := block_indices t
  show (cfg1.win 3).cut (grid1.coords t) ((dat1 (F := Ideal) V c).after 3 t) = _
  rw [after1_3 (F := Ideal) V c t h7]
  funext y
  have hy0 : (y 0).val < 1024 := (y 0).isLt
  have hy1 : (y 1).val < 2048 := (y 1).isLt
  have hy : (cfg1.win 3).xinj (grid1.coords t) y = ix2 (⟨(y 0).val, hy0⟩ : Fin 1024) (⟨(y 1).val, hy1⟩ : Fin 2048) := by
    funext ax
    match ax with
    | ⟨0, _⟩ => rfl
    | ⟨1, _⟩ => rfl
  rw [View.read_apply]
  show k1_pay3 (F := Ideal) (scr1 (F := Ideal) V c t.val t.isLt) (bb1 (F := Ideal) V c t) ((cfg1.win 3).xinj (grid1.coords t) y)
    = mmOut X W B (((cfg1.win 3).blk t).view.emb y)
  rw [hy]
  exact out_block_apply V c X W B hX hW hB t h7 ⟨(y 0).val, hy0⟩ ⟨(y 1).val, hy1⟩ _ _
    (by show win1_3.index t (0 : Fin 2) * 1024 + 1 * (y 0).val = 1024 * (t.val / 16) + (y 0).val; rw [e6]; omega)
    (by show win1_3.index t (1 : Fin 2) * 2048 + 1 * (y 1).val = 2048 * (t.val / 8 % 2) + (y 1).val; rw [e7]; omega)

/-- Every entry (a, b) of the array is written back by the last point of the run of its row block a / 1024 and column
    block b / 2048. -/
theorem out_cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  have hlt : 16 * ((i 0).val / 1024) + 8 * ((i 1).val / 2048) + 7 < cfg1.N := by rw [hN]; omega
  obtain ⟨t, ht⟩ : ∃ t : Fin cfg1.N, t.val = 16 * ((i 0).val / 1024) + 8 * ((i 1).val / 2048) + 7 := ⟨⟨_, hlt⟩, rfl⟩
  obtain ⟨-, -, -, -, -, -, e6, e7⟩ := block_indices t
  refine ⟨t, (flush1_3 t).mpr (by omega), ?_⟩
  show i ∈ ((View.whole main_v5).slice (win1_3.rect t)).set
  rw [View.set_slice_whole, Rect.mem_set_unit]
  intro ax
  match ax with
  | ⟨0, _⟩ =>
    show win1_3.index t (0 : Fin 2) * 1024 ≤ (i 0).val ∧ (i 0).val < win1_3.index t (0 : Fin 2) * 1024 + 1024
    rw [e6]; omega
  | ⟨1, _⟩ =>
    show win1_3.index t (1 : Fin 2) * 2048 ≤ (i 1).val ∧ (i 1).val < win1_3.index t (1 : Fin 2) * 2048 + 2048
    rw [e7]; omega

end

end MM

/-- Entered with X, W and the bias row B in its three input arrays, region 1 leaves X · Wᵀ + B. -/
theorem mm_value (V : (c : Dev nD) → (b : Ref sig .tc) → Buf (Elt Ideal) ((c : Thread nD τ).loc b)) (c : Dev nD)
    (X : FVec Ideal S8192x4096 .f32) (W : FVec Ideal S4096x4096 .bf16) (B : FVec Ideal S1x4096 .f32)
    (hX : V c main_v3 = X) (hW : V c main_v2 = W) (hB : V c main_v4 = B)
    (a : Fin 8192) (b : Fin 4096) :
    ((dat1 (F := Ideal) V c).arrAt 3 cfg1.N : FVec Ideal S8192x4096 .f32) (ix2 a b)
      = (∑ k : Fin 4096, X (ix2 a k) * W (ix2 b k)) + B (ix2 (0 : Fin 1) b) := by
  have h := (dat1 (F := Ideal) V c).arrAt_eq_of_cover 3 (MM.mmOut X W B)
    (fun t hf => MM.flushed_eq V c X W B hX hW hB t hf) MM.out_cover
  exact (congrFun h (ix2 a b)).trans rfl

end Cert.KernelIdeal.Hand

end
-- ==== Proof.KI.KValue.lean ====
/- The kernel's whole result at the ideal instance. The last reshape reads region 1's output array row 2048·b + r at
   (b, r); that array is X · Wᵀ + bias with X the rows of x, W region 0's output array, which is the specification's weight
   array of the packed words and scales; so the result buffer holds the specification's result of the four arguments. -/
import proofs.«417664_j21938692948405_3_alg».proof.Proof.KI.Run
import proofs.«417664_j21938692948405_3_alg».proof.Proof.KI.WValue
import proofs.«417664_j21938692948405_3_alg».proof.Proof.KI.MMValue
import proofs.«417664_j21938692948405_3_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

variable (m : (ℓ : Loc nD τ sig) → Buf (Elt Ideal) ℓ)

/-- The four argument arrays on core c at their literal types. -/
abbrev argX (c : Dev nD) : FVec Ideal S4x2048x4096 .f32 := m ((c : Thread nD τ).loc main_arg0)
abbrev argP (c : Dev nD) : IVec S8388608 32 := m ((c : Thread nD τ).loc main_arg1)
abbrev argS (c : Dev nD) : FVec Ideal S1048576 .f32 := m ((c : Thread nD τ).loc main_arg2)
abbrev argB (c : Dev nD) : FVec Ideal S4096 .f32 := m ((c : Thread nD τ).loc main_arg3)

/-! ## Three reshapes read at an index (row-major positions agree) -/

/-- x re-laid as 8192 rows: row 2048·b + r is row (b, r) of x. -/
theorem relaid_rows (x : FVec Ideal S4x2048x4096 .f32) (h : S4x2048x4096.ShapeCasts S8192x4096) (b : Fin 4) (r : Fin 2048) (k : Fin 4096) :
    shapeCast S8192x4096 x h (ix2 (⟨2048 * b.val + r.val, by have := b.isLt; have := r.isLt; omega⟩ : Fin 8192) k) = x (ix3 b r k) := by
  refine shapeCast_apply _ _ _ _ ?_
  rw [Shape.rowMajor_val_three, Shape.rowMajor_val_two]
  show (b.val * 2048 + r.val) * 4096 + k.val = (2048 * b.val + r.val) * 4096 + k.val
  omega

/-- A vector re-laid as one row reads the vector. -/
theorem relaid_row (x : FVec Ideal S4096 .f32) (h : S4096.ShapeCasts S1x4096) (o : Fin 4096) :
    shapeCast S1x4096 x h (ix2 (0 : Fin 1) o) = x (ix1 o) := by
  refine shapeCast_apply _ _ _ _ ?_
  rw [Shape.rowMajor_val_one, Shape.rowMajor_val_two]
  show o.val = 0 * 4096 + o.val
  omega

/-- 8192 rows re-laid as [4, 2048, ·]: entry (b, r, o) is row 2048·b + r, column o. -/
theorem relaid_back (y : FVec Ideal S8192x4096 .f32) (h : S8192x4096.ShapeCasts S4x2048x4096) (b : Fin 4) (r : Fin 2048) (o : Fin 4096) :
    shapeCast S4x2048x4096 y h (ix3 b r o) = y (ix2 (⟨2048 * b.val + r.val, by have := b.isLt; have := r.isLt; omega⟩ : Fin 8192) o) := by
  refine shapeCast_apply _ _ _ _ ?_
  rw [Shape.rowMajor_val_three, Shape.rowMajor_val_two]
  show (2048 * b.val + r.val) * 4096 + o.val = (b.val * 2048 + r.val) * 4096 + o.val
  omega

/-! ## The result buffer -/

/-- Row 2048·b + r of region 1's left operand is row (b, r) of x. -/
theorem x_rows (c : Dev nD) (b : Fin 4) (r : Fin 2048) (k : Fin 4096) :
    (V3 m c main_v3 : FVec Ideal S8192x4096 .f32) (ix2 (⟨2048 * b.val + r.val, by have := b.isLt; have := r.isLt; omega⟩ : Fin 8192) k)
      = argX m c (ix3 b r k) := by
  rw [V3_main_v3]
  exact relaid_rows (argX m c) _ b r k

/-- Region 1's bias row reads the bias. -/
theorem bias_row (c : Dev nD) (o : Fin 4096) :
    (V3 m c main_v4 : FVec Ideal S1x4096 .f32) (ix2 (0 : Fin 1) o) = argB m c (ix1 o) := by
  rw [V3_main_v4]
  exact relaid_row (argB m c) _ o

/-- The result buffer after the run is the specification's result of the arguments. -/
theorem kernel_value (c : Dev nD) :
    (W5 m c (Proc.devRef .tc main_v6) : FVec Ideal S4x2048x4096 .f32)
      = Cert.Spec.out (argX m c) (argP m c) (argS m c) (argB m c) := by
  rw [W5_main_v6]
  funext j
  obtain ⟨b, r, o, rfl⟩ : ∃ (b : Fin 4) (r : Fin 2048) (o : Fin 4096), j = ix3 b r o := ⟨j 0, j 1, j 2, eq_ix3 j⟩
  refine (relaid_back ((dat1 (F := Ideal) (V3 m) c).arrAt 3 cfg1.N) _ b r o).trans ?_
  rw [mm_value (V3 m) c _ _ _ rfl rfl rfl]
  show _ = Cert.Spec.outAt (argX m c) (argP m c) (argS m c) (argB m c) b r o
  unfold Cert.Spec.outAt
  congr 1
  · refine Finset.sum_congr rfl fun k _ => ?_
    rw [x_rows, V3_main_v2, w_value (V1 m) c (argP m c) (argS m c) (V1_main_v0 m c) (V1_main_v1 m c)]
  · exact bias_row m c o

end Cert.KernelIdeal.Hand

end
-- ==== Proof.RefTerm.lean ====
/- The reference program's result as one pure function of its four argument arrays: its host operations composed in
   program order (the outlined select inlined at its call). Generic in the float instance. -/
import proofs.«417664_j21938692948405_3_alg».proof.ReferenceIdeal
import proofs.«417664_j21938692948405_3_alg».proof.Proof.Gen.ReferenceIdeal

noncomputable section

namespace Cert.ReferenceIdeal.Hand

open Idealize.ShloMosaic Cert.ReferenceIdeal Cert.ReferenceIdeal.Facts₀

variable {F : FTy → Type} [FloatOps F]

/-- The table of the eight magnitudes. -/
def tab : FVec F S8 .f32 := fun i => FloatOps.ofBits .f32 (lit0 (S8.rowMajor i))

/-- The sixteen million 4-bit codes in weight order: word b's high nibble at 2b, its low nibble at 2b + 1. -/
def codes (p : IVec S8388608 32) : IVec S16777216 32 :=
  let v1 : IVec S8388608 32 := Host.shrsi p (broadcastInDim S8388608 ![] bcast_S_S8388608 (constantI S_ 32 4#32))
  let v3 : IVec S8388608 32 := andi v1 (broadcastInDim S8388608 ![] bcast_S_S8388608 (constantI S_ 32 15#32))
  let v5 : IVec S8388608 32 := andi p (broadcastInDim S8388608 ![] bcast_S_S8388608 (constantI S_ 32 15#32))
  let v6 : IVec S8388608x1 32 := broadcastInDim S8388608x1 ![0] bcast_S8388608_S8388608x1_0 v3
  let v7 : IVec S8388608x1 32 := broadcastInDim S8388608x1 ![0] bcast_S8388608_S8388608x1_0 v5
  let v8 : IVec S8388608x2 32 := concatenate S8388608x2 1 [⟨S8388608x1, v6⟩, ⟨S8388608x1, v7⟩] concatenates_S8388608x1_S8388608x1_S8388608x2_d1
  shapeCast S16777216 v8 shapeCasts_S8388608x2_S16777216

/-- The signed magnitudes of the codes. -/
def vals (v9 : IVec S16777216 32) : FVec F S16777216 .f32 :=
  let v11 : IVec S16777216 32 := Host.shrsi v9 (broadcastInDim S16777216 ![] bcast_S_S16777216 (constantI S_ 32 3#32))
  let v13 : IVec S16777216 32 := andi v11 (broadcastInDim S16777216 ![] bcast_S_S16777216 (constantI S_ 32 1#32))
  let v14 : FVec F S16777216 .f32 := sitofp .f32 v13
  let v16 : IVec S16777216 32 := andi v9 (broadcastInDim S16777216 ![] bcast_S_S16777216 (constantI S_ 32 7#32))
  let v18 : IVec S16777216 1 := cmpi .slt v16 (broadcastInDim S16777216 ![] bcast_S_S16777216 (constantI S_ 32 0#32))
  let v20 : IVec S16777216 32 := addi v16 (broadcastInDim S16777216 ![] bcast_S_S16777216 (constantI S_ 32 8#32))
  let v21 : IVec S16777216 32 := select v18 v20 v16
  let v22 : IVec S16777216x1 32 := broadcastInDim S16777216x1 ![0] bcast_S16777216_S16777216x1_0 v21
  let v23 : FVec F S16777216 .f32 := Host.gather gather_S8_S16777216x1_S16777216_n_0_n_n_0_1_1 (tab (F := F)) v22
  let v24 : FVec F S16777216 .f32 := broadcastInDim S16777216 ![] bcast_S_S16777216 (constant S_ .f32 0x3F800000#32)
  let v25 : IVec S16777216 1 := cmpf .oeq v14 v24
  let v26 : FVec F S16777216 .f32 := Host.negf v23
  select v25 v26 v23

/-- The weight matrix. -/
def weights (p : IVec S8388608 32) (s : FVec F S1048576 .f32) : FVec F S4096x4096 .f32 :=
  let v28 : FVec F S1048576x16 .f32 := broadcastInDim S1048576x16 ![0] bcast_S1048576_S1048576x16_0 s
  let v29 : FVec F S16777216 .f32 := shapeCast S16777216 v28 shapeCasts_S1048576x16_S16777216
  let v30 : FVec F S16777216 .f32 := mulf (vals (codes p)) v29
  shapeCast S4096x4096 v30 shapeCasts_S16777216_S4096x4096

/-- The whole result. -/
def refTerm (x : FVec F S4x2048x4096 .f32) (p : IVec S8388608 32) (s : FVec F S1048576 .f32) (b : FVec F S4096 .f32) :
    FVec F S4x2048x4096 .f32 :=
  let v32 : FVec F S4x2048x4096 .f32 := Host.dotGeneral dot_S4x2048x4096_S4096x4096_S4x2048x4096_2_1_01_0_n_n none x (weights p s)
  let v33 : FVec F S1x1x4096 .f32 := broadcastInDim S1x1x4096 ![2] bcast_S4096_S1x1x4096_2 b
  let v34 : FVec F S4x2048x4096 .f32 := broadcastInDim S4x2048x4096 ![0, 1, 2] bcast_S1x1x4096_S4x2048x4096_0_1_2 v33
  addf v32 v34

end Cert.ReferenceIdeal.Hand

end
-- ==== Proof.RefRun.lean ====
/- The reference program's run: every weakly fair execution of its @main terminates, nothing faulting, with the result
   buffer at the composed term of the arguments and the arguments unchanged. Generic in the float instance. -/
import proofs.«417664_j21938692948405_3_alg».proof.Proof.RefTerm
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem Cert.ReferenceIdeal

variable {F : FTy → Type} [FloatOps F]

section Line

open Cert.ReferenceIdeal.Facts₀

/-- @main as one straight line of forty-six host operations, in program order: the table of magnitudes and the
    nibble split (fourteen, ending in the codes), the decode of sign and magnitude (twenty-four, the last of them the
    outlined select, listed at its call over the call's own result buffer), the scaling and the reshape to the weight
    matrix (four), the contraction and the bias (four). -/
abbrev ops : List (HloOp τ sig (Elt F)) :=
  [ StableHlo.nullary main_cst (fun i => FloatOps.ofBits .f32 (lit0 (S8.rowMajor i))),
    StableHlo.nullary main_c (constantI S_ 32 4#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg1 main_v0 main_v1 (Host.shrsi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 15#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (andi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 15#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_arg1 main_v4 main_v5 (andi : (⟨S8388608, .i32⟩ : BufTy).Contents (Elt F) → (⟨S8388608, .i32⟩ : BufTy).Contents (Elt F) → (⟨S8388608, .i32⟩ : BufTy).Contents (Elt F)),
    StableHlo.unary main_v3 main_v6 (broadcastInDim S8388608x1 ![0] bcast_S8388608_S8388608x1_0 : (⟨S8388608, .i32⟩ : BufTy).Contents (Elt F) → (⟨S8388608x1, .i32⟩ : BufTy).Contents (Elt F)),
    StableHlo.unary main_v5 main_v7 (broadcastInDim S8388608x1 ![0] bcast_S8388608_S8388608x1_0 : (⟨S8388608, .i32⟩ : BufTy).Contents (Elt F) → (⟨S8388608x1, .i32⟩ : BufTy).Contents (Elt F)),
    StableHlo.binary main_v6 main_v7 main_v8 ((fun a b => concatenate S8388608x2 1 [⟨S8388608x1, a⟩, ⟨S8388608x1, b⟩] concatenates_S8388608x1_S8388608x1_S8388608x2_d1) : (⟨S8388608x1, .i32⟩ : BufTy).Contents (Elt F) → (⟨S8388608x1, .i32⟩ : BufTy).Contents (Elt F) → (⟨S8388608x2, .i32⟩ : BufTy).Contents (Elt F)),
    StableHlo.reshape main_v8 main_v9 rfl shapeCasts_S8388608x2_S16777216,
    StableHlo.nullary main_c_2 (constantI S_ 32 3#32),
    StableHlo.unary main_c_2 main_v10 (broadcastInDim S16777216 ![] bcast_S_S16777216 : (⟨S_, .i32⟩ : BufTy).Contents (Elt F) → (⟨S16777216, .i32⟩ : BufTy).Contents (Elt F)),
    StableHlo.binary main_v9 main_v10 main_v11 (Host.shrsi : (⟨S16777216, .i32⟩ : BufTy).Contents (Elt F) → (⟨S16777216, .i32⟩ : BufTy).Contents (Elt F) → (⟨S16777216, .i32⟩ : BufTy).Contents (Elt F)),
    StableHlo.nullary main_c_3 (constantI S_ 32 1#32),
    StableHlo.unary main_c_3 main_v12 (broadcastInDim S16777216 ![] bcast_S_S16777216 : (⟨S_, .i32⟩ : BufTy).Contents (Elt F) → (⟨S16777216, .i32⟩ : BufTy).Contents (Elt F)),
    StableHlo.binary main_v11 main_v12 main_v13 (andi : (⟨S16777216, .i32⟩ : BufTy).Contents (Elt F) → (⟨S16777216, .i32⟩ : BufTy).Contents (Elt F) → (⟨S16777216, .i32⟩ : BufTy).Contents (Elt F)),
    StableHlo.unary main_v13 main_v14 (sitofp .f32 : (⟨S16777216, .i32⟩ : BufTy).Contents (Elt F) → (⟨S16777216, .f32⟩ : BufTy).Contents (Elt F)),
    StableHlo.nullary main_c_4 (constantI S_ 32 7#32),
    StableHlo.unary main_c_4 main_v15 (broadcastInDim S16777216 ![] bcast_S_S16777216 : (⟨S_, .i32⟩ : BufTy).Contents (Elt F) → (⟨S16777216, .i32⟩ : BufTy).Contents (Elt F)),
    StableHlo.binary main_v9 main_v15 main_v16 (andi : (⟨S16777216, .i32⟩ : BufTy).Contents (Elt F) → (⟨S16777216, .i32⟩ : BufTy).Contents (Elt F) → (⟨S16777216, .i32⟩ : BufTy).Contents (Elt F)),
    StableHlo.nullary main_c_5 (constantI S_ 32 0#32),
    StableHlo.unary main_c_5 main_v17 (broadcastInDim S16777216 ![] bcast_S_S16777216 : (⟨S_, .i32⟩ : BufTy).Contents (Elt F) → (⟨S16777216, .i32⟩ : BufTy).Contents (Elt F)),
    StableHlo.binary main_v16 main_v17 main_v18 (cmpi .slt : (⟨S16777216, .i32⟩ : BufTy).Contents (Elt F) → (⟨S16777216, .i32⟩ : BufTy).Contents (Elt F) → (⟨S16777216, .i1⟩ : BufTy).Contents (Elt F)),
    StableHlo.nullary main_c_6 (constantI S_ 32 8#32),
    StableHlo.unary main_c_6 main_v19 (broadcastInDim S16777216 ![] bcast_S_S16777216 : (⟨S_, .i32⟩ : BufTy).Contents (Elt F) → (⟨S16777216, .i32⟩ : BufTy).Contents (Elt F)),
    StableHlo.binary main_v16 main_v19 main_v20 (addi : (⟨S16777216, .i32⟩ : BufTy).Contents (Elt F) → (⟨S16777216, .i32⟩ : BufTy).Contents (Elt F) → (⟨S16777216, .i32⟩ : BufTy).Contents (Elt F)),
    StableHlo.ternary main_v18 main_v20 main_v16 main_v21 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v21 main_v22 (broadcastInDim S16777216x1 ![0] bcast_S16777216_S16777216x1_0 : (⟨S16777216, .i32⟩ : BufTy).Contents (Elt F) → (⟨S16777216x1, .i32⟩ : BufTy).Contents (Elt F)),
    StableHlo.binary main_cst main_v22 main_v23 ((fun x i => Host.gather gather_S8_S16777216x1_S16777216_n_0_n_n_0_1_1 x i) : (⟨S8, .f32⟩ : BufTy).Contents (Elt F) → (⟨S16777216x1, .i32⟩ : BufTy).Contents (Elt F) → (⟨S16777216, .f32⟩ : BufTy).Contents (Elt F)),
    StableHlo.nullary main_cst_7 (constant S_ .f32 0x3F800000#32),
    StableHlo.unary main_cst_7 main_v24 (broadcastInDim S16777216 ![] bcast_S_S16777216 : (⟨S_, .f32⟩ : BufTy).Contents (Elt F) → (⟨S16777216, .f32⟩ : BufTy).Contents (Elt F)),
    StableHlo.binary main_v14 main_v24 main_v25 (cmpf .oeq : (⟨S16777216, .f32⟩ : BufTy).Contents (Elt F) → (⟨S16777216, .f32⟩ : BufTy).Contents (Elt F) → (⟨S16777216, .i1⟩ : BufTy).Contents (Elt F)),
    StableHlo.unary main_v23 main_v26 (Host.negf : (⟨S16777216, .f32⟩ : BufTy).Contents (Elt F) → (⟨S16777216, .f32⟩ : BufTy).Contents (Elt F)),
    StableHlo.TRef.ternary (Tc := ⟨S16777216, .i1⟩) (Ta := ⟨S16777216, .f32⟩) (Tb := ⟨S16777216, .f32⟩) (.of main_v25) (.of main_v26) (.of main_v23) main_call0.v0 select,
    StableHlo.unary main_arg2 main_v28 (broadcastInDim S1048576x16 ![0] bcast_S1048576_S1048576x16_0 : (⟨S1048576, .f32⟩ : BufTy).Contents (Elt F) → (⟨S1048576x16, .f32⟩ : BufTy).Contents (Elt F)),
    StableHlo.reshape main_v28 main_v29 rfl shapeCasts_S1048576x16_S16777216,
    StableHlo.binary main_v27 main_v29 main_v30 (mulf : (⟨S16777216, .f32⟩ : BufTy).Contents (Elt F) → (⟨S16777216, .f32⟩ : BufTy).Contents (Elt F) → (⟨S16777216, .f32⟩ : BufTy).Contents (Elt F)),
    StableHlo.reshape main_v30 main_v31 rfl shapeCasts_S16777216_S4096x4096,
    StableHlo.binary main_arg0 main_v31 main_v32 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    StableHlo.unary main_arg3 main_v33 (broadcastInDim S1x1x4096 ![2] bcast_S4096_S1x1x4096_2 : (⟨S4096, .f32⟩ : BufTy).Contents (Elt F) → (⟨S1x1x4096, .f32⟩ : BufTy).Contents (Elt F)),
    StableHlo.unary main_v33 main_v34 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v32 main_v34 main_v35 (addf : (⟨S4x2048x4096, .f32⟩ : BufTy).Contents (Elt F) → (⟨S4x2048x4096, .f32⟩ : BufTy).Contents (Elt F) → (⟨S4x2048x4096, .f32⟩ : BufTy).Contents (Elt F)) ]

end Line

-- forty-six binds re-associated: the rewrite under the chain recurses once per statement
set_option maxRecDepth 2048 in
/-- @main is that line: the outlined function unfolded at its call, both sides are one chain of host steps once
    sequencing is reassociated. -/
theorem main_eq (c : Dev nD) : main (F := F) c = StableHlo.seq ops := by
  simp only [main, fn_where.body, StableHlo.seq, bind_assoc, pure_bind]

/-- The signature scopes no buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore references only. -/
theorem ops_sub : (ops : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.unary_bufs_sub .., StableHlo.unary_bufs_sub ..,
    StableHlo.binary_bufs_sub .., StableHlo.reshape_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub ..,
    StableHlo.unary_bufs_sub .., StableHlo.ternary_bufs_sub .., StableHlo.unary_bufs_sub .., StableHlo.reshape_bufs_sub ..,
    StableHlo.binary_bufs_sub .., StableHlo.reshape_bufs_sub .., StableHlo.binary_bufs_sub .., StableHlo.unary_bufs_sub ..,
    StableHlo.unary_bufs_sub .., StableHlo.binary_bufs_sub ..⟩

/-- The rewriting half of the library's result tactic, for a fold already unrolled: each operation's result at its own
    buffer is its function's value, at any other reference what was there. It goes on inside the operand list of the
    concatenation, where a simplifier pass stops. -/
local macro "results_by_rw" : tactic =>
  `(tactic| repeat (first
      | rw [StableHlo.nullary_result] | rw [StableHlo.unary_result] | rw [StableHlo.binary_result]
      | rw [StableHlo.ternary_result] | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

set_option maxRecDepth 8192 in
set_option maxHeartbeats 1600000 in
/-- What the result buffer holds after the line, from any contents: the operations composed. The fold is unrolled and
    each buffer read is replaced by the value of the operation that wrote it, every shared intermediate once; what is
    left is the composed term, which is `refTerm` read at the four arguments (its definitions are the same operations
    in the same order; a typed reference's transport and a reshape's change of element type are the identity here). -/
theorem after_v35 (V : Valuation τ sig (Elt F)) :
    StableHlo.after ops V (Proc.devRef (τ := τ) .tc main_v35)
      = refTerm (V (Proc.devRef (τ := τ) .tc main_arg0)) (V (Proc.devRef (τ := τ) .tc main_arg1))
          (V (Proc.devRef (τ := τ) .tc main_arg2)) (V (Proc.devRef (τ := τ) .tc main_arg3)) := by
  after_results_simp
  results_by_rw
  try simp only [StableHlo.TRef.ofBuf, StableHlo.TRef.toBuf, cast_eq]
  rfl

/-- No operation of the line writes an argument. -/
theorem after_arg0 (V : Valuation τ sig (Elt F)) :
    StableHlo.after ops V (Proc.devRef (τ := τ) .tc main_arg0) = V (Proc.devRef (τ := τ) .tc main_arg0) := by
  after_results_simp
theorem after_arg1 (V : Valuation τ sig (Elt F)) :
    StableHlo.after ops V (Proc.devRef (τ := τ) .tc main_arg1) = V (Proc.devRef (τ := τ) .tc main_arg1) := by
  after_results_simp
theorem after_arg2 (V : Valuation τ sig (Elt F)) :
    StableHlo.after ops V (Proc.devRef (τ := τ) .tc main_arg2) = V (Proc.devRef (τ := τ) .tc main_arg2) := by
  after_results_simp
theorem after_arg3 (V : Valuation τ sig (Elt F)) :
    StableHlo.after ops V (Proc.devRef (τ := τ) .tc main_arg3) = V (Proc.devRef (τ := τ) .tc main_arg3) := by
  after_results_simp

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v35)
          = refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun _ h c =>
      ⟨(h c main_v35).trans (after_v35 (StableHlo.launchContents m c)),
        (h c main_arg0).trans (after_arg0 (StableHlo.launchContents m c)),
        (h c main_arg1).trans (after_arg1 (StableHlo.launchContents m c)),
        (h c main_arg2).trans (after_arg2 (StableHlo.launchContents m c)),
        (h c main_arg3).trans (after_arg3 (StableHlo.launchContents m c))⟩)
    (StableHlo.run_seq scopedRefs_eq scopedSems_eq (defs (F := F)) (main (F := F)) (fun _ => ops) main_eq (fun _ => ops_sub) m ρ)

end Cert.ReferenceIdeal.Hand

end
-- ==== Proof.RefValue.lean ====
/- The reference's composed term, at the ideal instance, is the specification: index by index its gathered, signed and
   scaled codes are the specification's weights, and its product plus the broadcast bias is the specification's result.

   Four stages, each read at explicit coordinates. (1) The code array: the two nibble arrays, each made a column, laid
   side by side and flattened, hold at position n the nibble n mod 2 of word n / 2. (2) The signed magnitudes: the float
   test on the converted sign bit is the test on the bit; a 3-bit index is never negative, so the wrap-around select
   keeps it and the gather's clamp does not move it; the table's eight entries are the eight magnitudes. (3) The weight
   matrix: entry (o, i) sits at flat position 4096·o + i, whose word, parity and scale are the specification's.
   (4) The product: the contraction index is one coordinate, the bias is read at the last coordinate. -/
import proofs.«417664_j21938692948405_3_alg».proof.Proof.RefTerm
import proofs.«417664_j21938692948405_3_alg».proof.Proof.Spec
import proofs.«417664_j21938692948405_3_alg».proof.Proof.LibDotPlain
import Idealize.ShloMosaic.PureOps.Ideal.Laws
import Idealize.ShloMosaic.Lib.ValueIdx
import Idealize.ShloMosaic.Lib.Pipeline.Value
import Idealize.ShloMosaic.Lib.IdealHost
import Idealize.ShloMosaic.Lib.StableHlo.Predicate

noncomputable section

namespace Cert.ReferenceIdeal.Hand

open Idealize.ShloMosaic Idealize.ShloMosaic.ValueIdx Cert.ReferenceIdeal
open scoped BigOperators

/-! ## Words: the host's shifts by 3 and 4, a masked word's range -/

/-- The host's arithmetic shift by 4 is the word's (4 is below the width). -/
theorem shrsi_host_four (x : BitVec 32) : IntOp.shrsi .host x 4#32 = x.sshiftRight' 4#32 := by
  unfold IntOp.shrsi; exact if_pos (by decide)

/-- The host's arithmetic shift by 3 is the word's. -/
theorem shrsi_host_three (x : BitVec 32) : IntOp.shrsi .host x 3#32 = x.sshiftRight' 3#32 := by
  unfold IntOp.shrsi; exact if_pos (by decide)

/-- A masked word is at most the mask. -/
theorem and_toNat_le (x m : BitVec 32) : (x &&& m).toNat ≤ m.toNat := by
  rw [BitVec.toNat_and]; exact Nat.and_le_right

/-- A word masked to its lowest bit is 0 or 1. -/
theorem bit_zero_or_one (x : BitVec 32) : (x &&& 1#32) = 0#32 ∨ (x &&& 1#32) = 1#32 := by
  have h : (x &&& 1#32).toNat ≤ 1 := and_toNat_le x 1#32
  rcases Nat.le_one_iff_eq_zero_or_eq_one.mp h with h0 | h1
  · left; exact BitVec.eq_of_toNat_eq h0
  · right; exact BitVec.eq_of_toNat_eq h1

/-- A word below 2³¹ reads the same signed and unsigned. -/
theorem toInt_of_small (c : BitVec 32) (h : c.toNat < 2 ^ 31) : c.toInt = (c.toNat : Int) := by
  have e := BitVec.toInt_eq_toNat_cond c
  rw [e, if_pos (by omega)]

/-! ## Stage 1: the code array -/

/-- A vector made a column reads the vector. -/
theorem column_apply {α : Type} {N : Nat} (h : (⟨1, ![N]⟩ : Shape).BroadcastsInDim ⟨2, ![N, 1]⟩ (![0] : Fin 1 → Fin 2))
    (v : (⟨1, ![N]⟩ : Shape).Idx → α) (a : Fin N) (z : Fin 1) (hN : N ≠ 1) :
    broadcastInDim ⟨2, ![N, 1]⟩ ![0] h v (ix2 a z) = v (ix1 a) :=
  broadcastInDim_apply _ _ _ _ _ fun c => match c with
    | ⟨0, _⟩ => by
      show a.val = if N = 1 then 0 else a.val
      rw [if_neg hN]

/-- Two vectors, each made a column, laid side by side: entry (a, b) is the first vector's at a for b = 0, the second's
    for b = 1. -/
theorem pairs_apply {α : Type} (x₁ x₂ : S8388608.Idx → α)
    (h : S8388608.BroadcastsInDim S8388608x1 (![0] : Fin 1 → Fin S8388608x1.rank))
    (hc : Shape.Concatenates [S8388608x1, S8388608x1] S8388608x2 1) (a : Fin 8388608) (b : Fin 2) :
    concatenate S8388608x2 1 [⟨S8388608x1, broadcastInDim S8388608x1 ![0] h x₁⟩, ⟨S8388608x1, broadcastInDim S8388608x1 ![0] h x₂⟩] hc (ix2 a b)
      = if b.val = 0 then x₁ (ix1 a) else x₂ (ix1 a) := by
  have hb := b.isLt
  by_cases h0 : b.val = 0
  · -- column 0: the first piece
    rw [if_pos h0]
    refine Eq.trans (concatenate_pair_apply_left (1 : Fin 2) _ _ hc (ix2 a b) ?_ (ix2 a (0 : Fin 1)) ?_) ?_
    · rfl
    · intro c
      match c with
      | ⟨0, _⟩ => rfl
      | ⟨1, _⟩ => show (0 : Nat) = b.val; omega
    · exact column_apply _ _ _ _ (by decide)
  · -- column 1: the second piece, one column further
    rw [if_neg h0]
    refine Eq.trans (concatenate_pair_apply_right (1 : Fin 2) _ _ hc (ix2 a b) ?_ ?_ (ix2 a (0 : Fin 1)) ?_ ?_) ?_
    · rfl
    · rfl
    · intro c hc'
      match c, hc' with
      | ⟨0, _⟩, _ => rfl
      | ⟨1, _⟩, hc' => exact absurd rfl hc'
    · show (0 : Nat) + 1 = b.val
      omega
    · exact column_apply _ _ _ _ (by decide)

/-- Position n of the code array is nibble n mod 2 of word n / 2: the high nibble at an even position, the low one at an
    odd position. -/
theorem codes_apply (p : IVec S8388608 32) (n : Fin 16777216) :
    codes p (ix1 n) = Cert.Spec.nib (p (ix1 ⟨n.val / 2, by have := n.isLt; omega⟩)) (n.val % 2) := by
  have hn := n.isLt
  unfold codes
  -- flat position n is row n / 2, column n mod 2 of the two-column array
  refine (shapeCast_apply _ _ (ix1 n) (ix2 (⟨n.val / 2, by omega⟩ : Fin 8388608) (⟨n.val % 2, by omega⟩ : Fin 2)) (by
    rw [Shape.rowMajor_val_two, Shape.rowMajor_val_one]
    show n.val / 2 * 2 + n.val % 2 = n.val
    omega)).trans ?_
  refine (pairs_apply _ _ _ _ _ _).trans ?_
  unfold Cert.Spec.nib Cert.Spec.hiNib Cert.Spec.loNib
  show (if n.val % 2 = 0 then IntOp.andi (IntOp.shrsi .host (p (ix1 _)) 4#32) 15#32 else IntOp.andi (p (ix1 _)) 15#32) = _
  rw [shrsi_host_four]
  rfl

/-! ## Stage 2: the signed magnitudes -/

/-- The float test "the converted sign bit equals 1.0" is the test "the bit is 1": the words 0 and 1 convert to the
    reals 0 and 1, and the pattern compared with denotes 1. -/
theorem sign_test (b : BitVec 32) (hb : b = 0#32 ∨ b = 1#32) :
    FloatOps.cmpf (F := Ideal) (φ := .f32) .oeq (FloatOps.sitofp .f32 b) (FloatOps.ofBits .f32 0x3F800000#32)
      = if b = 1#32 then 1#1 else 0#1 := by
  show Ideal.cmp .oeq (((b.toInt : ℝ) : EReal)) (Ideal.ofBits .f32 0x3F800000#32) = _
  rw [Ideal.ofBits_one_f32]
  rcases hb with h | h
  · subst h
    rw [if_neg (by decide)]
    show BitVec.ofBool (decide ((((0#32 : BitVec 32).toInt : ℝ) : EReal) = 1)) = 0#1
    have : (0#32 : BitVec 32).toInt = 0 := by decide
    rw [this]
    simp
  · subst h
    rw [if_pos rfl]
    show BitVec.ofBool (decide ((((1#32 : BitVec 32).toInt : ℝ) : EReal) = 1)) = 1#1
    have : (1#32 : BitVec 32).toInt = 1 := by decide
    rw [this]
    simp

/-- A 3-bit index is not negative: the wrap-around select keeps it. -/
theorem wrap_select (c : BitVec 32) (hc : c.toNat ≤ 7) :
    Scalar.select (IntOp.cmpi .slt c 0#32) (IntOp.addi c 8#32) c = c := by
  have hi : c.toInt = (c.toNat : Int) := toInt_of_small c (by omega)
  have : IntOp.cmpi .slt c 0#32 = 0#1 := by
    show BitVec.ofBool (c.slt 0#32) = 0#1
    have : c.slt 0#32 = false := by
      rw [BitVec.slt, hi]
      simp
    rw [this]; rfl
  rw [this]
  exact select_zero _ _

/-- The gather's clamp into the table leaves a 3-bit index where it is. -/
theorem clamp_code (c : BitVec 32) (hc : c.toNat ≤ 7) : min c.toInt.toNat 7 = c.toNat := by
  rw [toInt_of_small c (by omega)]
  simp
  omega

/-- A word is the word of its value. -/
theorem ofNat_toNat_word (c : BitVec 32) : BitVec.ofNat 32 c.toNat = c :=
  BitVec.eq_of_toNat_eq (by rw [BitVec.toNat_ofNat]; exact Nat.mod_eq_of_lt c.isLt)

/-- The table's entry at a 3-bit index is that index's magnitude. -/
theorem tab_at_code (k : Fin 8) : Ideal.ofBits .f32 (lit0 k) = Cert.Spec.magOf (BitVec.ofNat 32 k.val) := by
  fin_cases k <;> rfl

/-- A rank-1 index built from its coordinate, in the two spellings the library uses. -/
theorem ix1_eq_ofFin {n : Nat} (k : Fin n) : (ix1 k : (⟨1, ![n]⟩ : Shape).Idx) = Shape.Idx.ofFin k := by
  funext a; match a with | ⟨0, _⟩ => rfl

/-- The gather of the magnitude table at a column of indices reads the table's entry at the clamped index. -/
theorem gather_tab_apply (w : IVec S16777216 32) (h : S16777216.BroadcastsInDim S16777216x1 (![0] : Fin 1 → Fin S16777216x1.rank))
    (n : Fin 16777216) (k : Fin 8) (hk : min (w (ix1 n)).toInt.toNat 7 = k.val) :
    Host.gather gather_S8_S16777216x1_S16777216_n_0_n_n_0_1_1 (tab (F := Ideal)) (broadcastInDim S16777216x1 ![0] h w) (ix1 n)
      = Ideal.ofBits .f32 (lit0 k) := by
  rw [ix1_eq_ofFin n]
  refine (StableHlo.Predicate.gather_take gather_S8_S16777216x1_S16777216_n_0_n_n_0_1_1 rfl rfl rfl rfl _ _ n (by decide)).trans ?_
  unfold tab
  show Ideal.ofBits .f32 (lit0 (S8.rowMajor _)) = _
  refine congrArg (fun q => Ideal.ofBits .f32 (lit0 q)) (Fin.ext ?_)
  rw [Shape.rowMajor_val_one]
  show min (broadcastInDim S16777216x1 ![0] h w (StableHlo.Predicate.ixP n)).toInt.toNat (8 - 1) = k.val
  rw [StableHlo.Predicate.bcast_col1, ← ix1_eq_ofFin n]
  exact hk

/-- A select on the decided sign test between the negated and the plain magnitude is the code's value. -/
theorem nibVal_of (x : BitVec 32) (C : BitVec 1) (N G : EReal)
    (hC : C = if Cert.Spec.signBit x = 1#32 then 1#1 else 0#1) (hN : N = -G) (hG : G = Cert.Spec.magOf (Cert.Spec.code x)) :
    Scalar.select C N G = Cert.Spec.nibVal x := by
  subst hN hG hC
  unfold Cert.Spec.nibVal
  by_cases h : Cert.Spec.signBit x = 1#32
  · rw [if_pos h, if_pos h]; exact select_one _ _
  · rw [if_neg h, if_neg h]; exact select_zero _ _

/-- The signed magnitude at a position is the value of the code there. -/
theorem vals_apply (v : IVec S16777216 32) (n : Fin 16777216) :
    vals (F := Ideal) v (ix1 n) = Cert.Spec.nibVal (v (ix1 n)) := by
  have hc : (Cert.Spec.code (v (ix1 n))).toNat ≤ 7 := and_toNat_le _ 7#32
  unfold vals
  refine nibVal_of (v (ix1 n)) _ _ _ ?_ rfl ?_
  · show FloatOps.cmpf (F := Ideal) (φ := .f32) .oeq
        (FloatOps.sitofp .f32 (IntOp.andi (IntOp.shrsi .host (v (ix1 n)) 3#32) 1#32)) (FloatOps.ofBits .f32 0x3F800000#32) = _
    rw [shrsi_host_three]
    exact sign_test _ (bit_zero_or_one _)
  · refine (gather_tab_apply _ _ n ⟨(Cert.Spec.code (v (ix1 n))).toNat, by omega⟩ ?_).trans ?_
    · show min (Scalar.select (IntOp.cmpi .slt (Cert.Spec.code (v (ix1 n))) 0#32)
          (IntOp.addi (Cert.Spec.code (v (ix1 n))) 8#32) (Cert.Spec.code (v (ix1 n)))).toInt.toNat 7 = _
      rw [wrap_select _ hc]
      exact clamp_code _ hc
    · refine (tab_at_code _).trans ?_
      show Cert.Spec.magOf (BitVec.ofNat 32 (Cert.Spec.code (v (ix1 n))).toNat) = _
      rw [ofNat_toNat_word]

/-! ## Stage 3: the weight matrix -/

/-- The scales, each repeated sixteen times and flattened, read at position m the scale m / 16. -/
theorem scales_apply (s : FVec Ideal S1048576 .f32)
    (h1 : S1048576.BroadcastsInDim S1048576x16 (![0] : Fin 1 → Fin S1048576x16.rank)) (h2 : S1048576x16.ShapeCasts S16777216)
    (m : Fin 16777216) :
    shapeCast S16777216 (broadcastInDim S1048576x16 ![0] h1 s) h2 (ix1 m) = s (ix1 ⟨m.val / 16, by have := m.isLt; omega⟩) := by
  have hm := m.isLt
  refine (shapeCast_apply _ _ (ix1 m) (ix2 (⟨m.val / 16, by omega⟩ : Fin 1048576) (⟨m.val % 16, by omega⟩ : Fin 16)) (by
    rw [Shape.rowMajor_val_two, Shape.rowMajor_val_one]
    show m.val / 16 * 16 + m.val % 16 = m.val
    omega)).trans ?_
  exact broadcastInDim_apply _ _ _ _ (ix1 (⟨m.val / 16, by omega⟩ : Fin 1048576)) (fun c => match c with
    | ⟨0, _⟩ => rfl)

/-- The reference's weight matrix is the specification's. -/
theorem weights_apply (p : IVec S8388608 32) (s : FVec Ideal S1048576 .f32) (o i : Fin 4096) :
    weights (F := Ideal) p s (ix2 o i) = Cert.Spec.wAt p s o i := by
  have ho := o.isLt
  have hi := i.isLt
  unfold weights
  -- entry (o, i) sits at flat position 4096·o + i
  refine (shapeCast_apply _ _ (ix2 o i) (ix1 (⟨4096 * o.val + i.val, by omega⟩ : Fin 16777216)) (by
    rw [Shape.rowMajor_val_one, Shape.rowMajor_val_two]
    show 4096 * o.val + i.val = o.val * 4096 + i.val
    omega)).trans ?_
  refine (mulf_apply _ _ _).trans ?_
  rw [vals_apply, codes_apply, scales_apply]
  unfold Cert.Spec.wAt
  -- the word, the parity and the scale of that position are the specification's
  have key : ∀ (a a' : Fin 8388608) (e e' : Nat) (c c' : Fin 1048576), a = a' → e = e' → c = c' →
      Cert.Spec.nibVal (Cert.Spec.nib (p (ix1 a)) e) * s (ix1 c) = Cert.Spec.nibVal (Cert.Spec.nib (p (ix1 a')) e') * s (ix1 c') := by
    intro a a' e e' c c' h1 h2 h3
    rw [h1, h2, h3]
  refine key _ _ _ _ _ _ (Fin.ext ?_) ?_ (Fin.ext ?_)
  · show (4096 * o.val + i.val) / 2 = 2048 * o.val + i.val / 2
    omega
  · show (4096 * o.val + i.val) % 2 = i.val % 2
    omega
  · show (4096 * o.val + i.val) / 16 = 256 * o.val + i.val / 16
    omega

/-! ## Stage 4: the product and the bias -/

/-- Moving along one index changes nothing but the position read. -/
theorem coord_congr {s : Shape} (j : s.Idx) (a b : Nat) (ha : a < s.rank) (hb : b < s.rank) (h : a = b) :
    (j ⟨a, ha⟩).val = (j ⟨b, hb⟩).val := by
  subst h; rfl

/-- No batch axis: on a free axis the left operand reads the result's coordinate at that axis's place among its free
    axes. -/
theorem lhsIdx_val_free {sl sr so : Shape} (d : DotDims sl sr so) (hlb : d.lhsBatch = [])
    {a : Fin sl.rank} (hn : a ∈ d.lhsNonContracting) (j : so.Idx) (k : d.contr.Idx) (q : Nat) (hq : q < so.rank)
    (hpos : d.lhsNonContracting.idxOf a = q) :
    (d.lhsIdx j k a).val = (j ⟨q, hq⟩).val := by
  have hb : a ∉ d.lhsBatch := by rw [hlb]; exact List.not_mem_nil
  unfold DotDims.lhsIdx
  rw [dif_neg hb, dif_pos hn]
  simp only [Fin.val_cast]
  exact coord_congr j _ _ _ _ (by simp [hlb, hpos])

/-- No batch axis: on a free axis the right operand reads the result's coordinate after the left operand's free axes. -/
theorem rhsIdx_val_free {sl sr so : Shape} (d : DotDims sl sr so) (hlb : d.lhsBatch = []) (hrb : d.rhsBatch = [])
    {a : Fin sr.rank} (hn : a ∈ d.rhsNonContracting) (j : so.Idx) (k : d.contr.Idx) (q : Nat) (hq : q < so.rank)
    (hpos : d.lhsNonContracting.length + d.rhsNonContracting.idxOf a = q) :
    (d.rhsIdx j k a).val = (j ⟨q, hq⟩).val := by
  have hb : a ∉ d.rhsBatch := by rw [hrb]; exact List.not_mem_nil
  unfold DotDims.rhsIdx
  rw [dif_neg hb, dif_pos hn]
  simp only [Fin.val_cast]
  exact coord_congr j _ _ _ _ (by simp [hlb, hpos])

/-- The contraction of the left operand's last axis with the matrix's second axis, at (a, b, c): the sum over k of
    l (a, b, k) · r (c, k). -/
theorem dot_sum (l : S4x2048x4096.Idx → EReal) (r : S4096x4096.Idx → EReal) (a : Fin 4) (b : Fin 2048) (c : Fin 4096) :
    (∑ k : dot_S4x2048x4096_S4096x4096_S4x2048x4096_2_1_01_0_n_n.contr.Idx,
        l (dot_S4x2048x4096_S4096x4096_S4x2048x4096_2_1_01_0_n_n.lhsIdx (ix3 a b c) k)
          * r (dot_S4x2048x4096_S4096x4096_S4x2048x4096_2_1_01_0_n_n.rhsIdx (ix3 a b c) k))
      = ∑ k : Fin 4096, l (ix3 a b k) * r (ix2 c k) := by
  have hlc : dot_S4x2048x4096_S4096x4096_S4x2048x4096_2_1_01_0_n_n.lhsContracting = [2] := rfl
  have hrc : dot_S4x2048x4096_S4096x4096_S4x2048x4096_2_1_01_0_n_n.rhsContracting = [1] := rfl
  have hr : dot_S4x2048x4096_S4096x4096_S4x2048x4096_2_1_01_0_n_n.contr.rank = 1 := Cert.DotPlain.contr_rank_one _ hlc
  have hs : dot_S4x2048x4096_S4096x4096_S4x2048x4096_2_1_01_0_n_n.contr.size ⟨0, by omega⟩ = 4096 :=
    Cert.DotPlain.contr_size_zero _ hlc
  rw [← Equiv.sum_comp (contrEquiv1 dot_S4x2048x4096_S4096x4096_S4x2048x4096_2_1_01_0_n_n 4096 hr hs).symm]
  refine Finset.sum_congr rfl fun k _ => ?_
  have hl : dot_S4x2048x4096_S4096x4096_S4x2048x4096_2_1_01_0_n_n.lhsIdx (ix3 a b c)
      ((contrEquiv1 dot_S4x2048x4096_S4096x4096_S4x2048x4096_2_1_01_0_n_n 4096 hr hs).symm k) = ix3 a b k := by
    funext ax
    match ax with
    | ⟨0, _⟩ => exact Fin.ext (lhsIdx_val_free _ rfl List.mem_cons_self _ _ 0 (by decide) rfl)
    | ⟨1, _⟩ => exact Fin.ext (lhsIdx_val_free _ rfl (List.mem_cons_of_mem _ List.mem_cons_self) _ _ 1 (by decide) rfl)
    | ⟨2, _⟩ => exact Fin.ext ((DotDims.lhsIdx_val_of_single _ hlc _ _).trans (contrEquiv1_symm_val _ 4096 hr hs k))
  have hrr : dot_S4x2048x4096_S4096x4096_S4x2048x4096_2_1_01_0_n_n.rhsIdx (ix3 a b c)
      ((contrEquiv1 dot_S4x2048x4096_S4096x4096_S4x2048x4096_2_1_01_0_n_n 4096 hr hs).symm k) = ix2 c k := by
    funext ax
    match ax with
    | ⟨0, _⟩ => exact Fin.ext (rhsIdx_val_free _ rfl rfl List.mem_cons_self _ _ 2 (by decide) rfl)
    | ⟨1, _⟩ => exact Fin.ext ((DotDims.rhsIdx_val_of_single _ hrc _ _).trans (contrEquiv1_symm_val _ 4096 hr hs k))
  rw [hl, hrr]

/-- The bias broadcast to the result's shape reads the bias at the last coordinate. -/
theorem bias_apply (bias : FVec Ideal S4096 .f32)
    (h1 : S4096.BroadcastsInDim S1x1x4096 (![2] : Fin 1 → Fin S1x1x4096.rank))
    (h2 : S1x1x4096.BroadcastsInDim S4x2048x4096 (![0, 1, 2] : Fin 3 → Fin S4x2048x4096.rank))
    (a : Fin 4) (b : Fin 2048) (c : Fin 4096) :
    broadcastInDim S4x2048x4096 ![0, 1, 2] h2 (broadcastInDim S1x1x4096 ![2] h1 bias) (ix3 a b c) = bias (ix1 c) := by
  refine (broadcastInDim_apply _ _ _ (ix3 a b c) (ix3 (0 : Fin 1) (0 : Fin 1) c) (fun x => match x with
    | ⟨0, _⟩ => rfl
    | ⟨1, _⟩ => rfl
    | ⟨2, _⟩ => rfl)).trans ?_
  exact broadcastInDim_apply _ _ _ (ix3 (0 : Fin 1) (0 : Fin 1) c) (ix1 c) (fun x => match x with
    | ⟨0, _⟩ => rfl)

/-- The reference's result at (b, r, o) is the specification's. -/
theorem refTerm_apply (x : FVec Ideal S4x2048x4096 .f32) (p : IVec S8388608 32) (s : FVec Ideal S1048576 .f32)
    (b : FVec Ideal S4096 .f32) (bb : Fin 4) (r : Fin 2048) (o : Fin 4096) :
    refTerm (F := Ideal) x p s b (ix3 bb r o) = Cert.Spec.outAt x p s b bb r o := by
  unfold refTerm
  refine (addf_apply _ _ _).trans ?_
  unfold Cert.Spec.outAt
  refine congrArg₂ (· + ·) ?_ (bias_apply b _ _ bb r o)
  refine (Ideal.dotGeneral_apply _ _ _ _ _ _).trans ?_
  refine (dot_sum _ _ bb r o).trans ?_
  exact Finset.sum_congr rfl fun i _ => by rw [weights_apply]

/-- The reference's result is the specification's. -/
theorem refTerm_eq (x : FVec Ideal S4x2048x4096 .f32) (p : IVec S8388608 32) (s : FVec Ideal S1048576 .f32) (b : FVec Ideal S4096 .f32) :
    refTerm (F := Ideal) x p s b = Cert.Spec.out x p s b := by
  funext j
  obtain ⟨bb, r, o, rfl⟩ : ∃ bb r o, j = ix3 bb r o := ⟨j 0, j 1, j 2, eq_ix3 j⟩
  exact refTerm_apply x p s b bb r o

end Cert.ReferenceIdeal.Hand

end
-- ==== Proof.lean ====
/- The proof of `Cert.Claim`: an NVFP4 linear layer as two kernels — packed 4-bit codes decoded, scaled per sixteen
   columns and interleaved into a weight matrix; then x · wᵀ + bias accumulated over eight column blocks — against the same
   layer written with array operations.
   Both programs compute one function of the four arguments (Proof/Spec.lean): weight (o, i) is the signed magnitude of
   code i mod 2 of packed word 2048·o + i/2 times scale 256·o + i/16, and the result at (b, s, o) is the sum over i of
   x (b, s, i) · weight (o, i) plus bias o. The kernel side: each region's frame half (Proof/KI/Region0.lean, Region1.lean),
   the run of the whole program with every buffer's final contents named (Proof/KI/Run.lean), each region's output array
   as a function of its input arrays (Proof/KI/WValue.lean, MMValue.lean: the sum over 4096 columns regrouped as eight
   partial sums of 512, in a commutative monoid) and the result buffer (Proof/KI/KValue.lean). The reference side: its run
   (Proof/RefRun.lean) to its operations' composed term (Proof/RefTerm.lean), which is the specification index by index
   (Proof/RefValue.lean). The three frames are the runs with the results dropped; the idealization rewrote nothing. -/
import proofs.«417664_j21938692948405_3_alg».proof.Defs
import proofs.«417664_j21938692948405_3_alg».proof.Proof.Gen.Kernel
import proofs.«417664_j21938692948405_3_alg».proof.Proof.Gen.KernelIdeal
import proofs.«417664_j21938692948405_3_alg».proof.Proof.Gen.ReferenceIdeal
import proofs.«417664_j21938692948405_3_alg».proof.Proof.Gen.Pre_finite_inputs
import proofs.«417664_j21938692948405_3_alg».proof.Proof.KB.Run
import proofs.«417664_j21938692948405_3_alg».proof.Proof.KI.KValue
import proofs.«417664_j21938692948405_3_alg».proof.Proof.RefRun
import proofs.«417664_j21938692948405_3_alg».proof.Proof.RefValue
import Idealize.ShloMosaic.Adequacy
import Idealize.ShloMosaic.Init

noncomputable section

namespace Cert.Proof

open Idealize.ShloMosaic Idealize.SL.Sem

/-- The word-level kernel program runs and leaves its arguments as launched: its run with everything but the arguments dropped. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m c),
     (h c _ (Cert.Kernel.Hand.mem_uc Cert.Kernel.main_arg1 (by decide))).trans (Cert.Kernel.Hand.W5_main_arg1 m c),
     (h c _ (Cert.Kernel.Hand.mem_uc Cert.Kernel.main_arg2 (by decide))).trans (Cert.Kernel.Hand.W5_main_arg2 m c),
     (h c _ (Cert.Kernel.Hand.mem_uc Cert.Kernel.main_arg3 (by decide))).trans (Cert.Kernel.Hand.W5_main_arg3 m c)⟩)
    (Cert.Kernel.Hand.run_all (F := Bits) m ρ)

/-- The same of the idealized kernel program. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m c),
     (h c _ (Cert.KernelIdeal.Hand.mem_uc Cert.KernelIdeal.main_arg1 (by decide))).trans (Cert.KernelIdeal.Hand.W5_main_arg1 m c),
     (h c _ (Cert.KernelIdeal.Hand.mem_uc Cert.KernelIdeal.main_arg2 (by decide))).trans (Cert.KernelIdeal.Hand.W5_main_arg2 m c),
     (h c _ (Cert.KernelIdeal.Hand.mem_uc Cert.KernelIdeal.main_arg3 (by decide))).trans (Cert.KernelIdeal.Hand.W5_main_arg3 m c)⟩)
    (Cert.KernelIdeal.Hand.run_all (F := Ideal) m ρ)

/-- The reference runs and leaves its arguments as launched: its run with the result dropped. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- The ideal pass rewrote no operation. -/
theorem preserves : Cert.preserves_Kernel_KernelIdeal := trivial

/-- From memories agreeing on the arguments both idealized programs end with the specification's result of those arguments. -/
theorem algebraic : Cert.algebraic_KernelIdeal_ReferenceIdeal := by
  intro m ρ m' ρ' _ hagree
  refine ⟨fun c => Cert.Spec.out (Cert.KernelIdeal.Hand.argX m c) (Cert.KernelIdeal.Hand.argP m c)
      (Cert.KernelIdeal.Hand.argS m c) (Cert.KernelIdeal.Hand.argB m c), ?_, ?_⟩
  · exact (θ_run (Cert.KernelIdeal.defs (F := Ideal)) _ _).mono (fun r h c =>
      ⟨(h c _ (Cert.KernelIdeal.Hand.mem_uc Cert.KernelIdeal.main_v6 (by decide))).trans (Cert.KernelIdeal.Hand.kernel_value m c),
       (h c _ (Cert.KernelIdeal.Hand.mem_uc Cert.KernelIdeal.main_arg0 (by decide))).trans (Cert.KernelIdeal.Hand.W5_main_arg0 m c),
       (h c _ (Cert.KernelIdeal.Hand.mem_uc Cert.KernelIdeal.main_arg1 (by decide))).trans (Cert.KernelIdeal.Hand.W5_main_arg1 m c),
       (h c _ (Cert.KernelIdeal.Hand.mem_uc Cert.KernelIdeal.main_arg2 (by decide))).trans (Cert.KernelIdeal.Hand.W5_main_arg2 m c),
       (h c _ (Cert.KernelIdeal.Hand.mem_uc Cert.KernelIdeal.main_arg3 (by decide))).trans (Cert.KernelIdeal.Hand.W5_main_arg3 m c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Hand.run (F := Ideal) m' ρ')
    rw [Cert.ReferenceIdeal.Hand.refTerm_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
